-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S256x128 : Shape := ⟨2, ![256, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x256x128 .f32) (main_arg1 : FVec F S256x128 .f32) (main_arg2 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8x256x128 : Shape := ⟨3, ![8, 256, 128]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S1x64x128 : Shape := ⟨3, ![1, 64, 128]⟩
abbrev S1x128x128 : Shape := ⟨3, ![1, 128, 128]⟩
abbrev S64x128 : Shape := ⟨2, ![64, 128]⟩
abbrev S64x1x128 : Shape := ⟨3, ![64, 1, 128]⟩
abbrev S64x128x128 : Shape := ⟨3, ![64, 128, 128]⟩
abbrev S1x1x128 : Shape := ⟨3, ![1, 1, 128]⟩

abbrev nBuf : Space → Nat
  | .hbm => 7
  | .vmem => 10
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S1x128, .f32⟩
  | .hbm, ⟨6, _⟩ => ⟨S8x256x128, .f32⟩
  | .local _ .vmem, ⟨0, _⟩ => ⟨S1x64x128, .f32⟩
  | .local _ .vmem, ⟨1, _⟩ => ⟨S1x64x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x64x128, .f32⟩
  | .local _ .vmem, ⟨8, _⟩ => ⟨S1x64x128, .f32⟩
  | .local _ .vmem, ⟨9, _⟩ => ⟨S64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S256x128_S128x128_0_0 : S256x128.Slices ![0, 0] S128x128
  slices_S256x128_S128x128_128_0 : S256x128.Slices ![128, 0] S128x128
  shapeCasts_S128_S1x128 : S128.ShapeCasts S1x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  reduces_S64x128x128_S64x128 : S64x128x128.Reduces [1] S64x128
  shapeCasts_S64x128_S1x64x128 : S64x128.ShapeCasts S1x64x128
  dot_S64x128_S128x128_S64x128_1_0_0_1_n_n_wf : DotDims.WF S64x128 S128x128 S64x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x256x128.size a
  hwx0_0 : ∀ i : grid0.Coords, EltTy.bits .f32 = 32 ∨ (Rect.block (s := S8x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x256x128.size a
  hwx0_1 : ∀ i : grid0.Coords, EltTy.bits .f32 = 32 ∨ (Rect.block (s := S8x256x128) S1x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S8x256x128.size a
  hwx0_5 : ∀ i : grid0.Coords, EltTy.bits .f32 = 32 ∨ (Rect.block (s := S8x256x128) S1x64x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x256x128 : Shape := ⟨3, ![8, 256, 128]⟩
abbrev S256x128 : Shape := ⟨2, ![256, 128]⟩
abbrev S128 : Shape := ⟨1, ![128]⟩
abbrev S128x128 : Shape := ⟨2, ![128, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S8x256x128, .f32⟩
  | .hbm, ⟨6, _⟩ => ⟨S8x256x128, .f32⟩
  | .hbm, ⟨7, _⟩ => ⟨S8x256x1x128, .f32⟩
  | .hbm, ⟨8, _⟩ => ⟨S8x1x256x128, .f32⟩
  | .hbm, ⟨9, _⟩ => ⟨S8x256x256x128, .f32⟩
  | .hbm, ⟨10, _⟩ => ⟨S8x256x256x128, .f32⟩
  | .hbm, ⟨11, _⟩ => ⟨S8x256x256x128, .f32⟩
  | .hbm, ⟨12, _⟩ => ⟨S1x1x1x128, .f32⟩
  | .hbm, ⟨13, _⟩ => ⟨S8x256x256x128, .f32⟩
  | .hbm, ⟨14, _⟩ => ⟨S8x256x256x128, .f32⟩
  | .hbm, ⟨15, _⟩ => ⟨S_, .f32⟩
  | .hbm, ⟨16, _⟩ => ⟨S8x256x256x128, .f32⟩
  | .hbm, ⟨17, _⟩ => ⟨S8x256x256x128, .f32⟩
  | .hbm, ⟨18, _⟩ => ⟨S_, .f32⟩
  | .hbm, ⟨19, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_cst : Ref sig .tc := ⟨.hbm, 15, rfl⟩
abbrev main_call0_v0 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  reducesTo_S8x256x256x128_S8x256x128_d2 : S8x256x256x128.ReducesTo [2] S8x256x128
  h_S_ : 0 < S_.numel
  dot_S8x256x128_S128x128_S8x256x128_2_0_01_1_n_n_wf : DotDims.WF S8x256x128 S128x128 S8x256x128 [2] [0] [0, 1] [1] [] []

variable [Facts₀]

def dot_S8x256x128_S128x128_S8x256x128_2_0_01_1_n_n : DotDims S8x256x128 S128x128 S8x256x128 where
  lhsContracting := [2]
  rhsContracting := [0]
  lhsNonContracting := [0, 1]
  rhsNonContracting := [1]
  lhsBatch := []
  rhsBatch := []
  wf := dot_S8x256x128_S128x128_S8x256x128_2_0_01_1_n_n_wf

class Facts : Prop extends Facts₀ where

variable [Facts]
-- ==== Proof.BitsLaunchBase.lean ====
/-
  The launch of the pairwise-sum kernel, first part: what the grid, the windows and the two `pl.when` conditions are.

  The kernel runs on a grid of 8 × 4 × 2 points (b, i, j); point number t has j = t mod 2. Two of its six windows read
  the SAME array x — window 0 the 64 rows of block i, window 1 the 128 rows of block j — windows 2, 3 and 4 read the two
  halves of W and the bias row (each the whole of a small array the host lines before the launch produce), window 5 is the
  result. A scratch of 64 × 128 numbers is carried from a point with j = 0 (where it is first zeroed) to the point with
  j = 1 after it (where it is copied to the result's block).

  This module states: the contents every array has when the launch begins (`entryVal`), that the host lines lead to the
  launch with those contents, what each input window's staging buffer holds at a point (its block: `blockAt`), the two
  conditions in closed form over the point number, and where the result window is idle.
-/
import proofs.«131842_j10565619548782_1_alg».proof.Proof.Gen.Kernel.Launch
import proofs.«131842_j10565619548782_1_alg».proof.Proof.Gen.Kernel.Skeleton
import proofs.«131842_j10565619548782_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What core `c`'s buffers hold when the launch begins: the given arrays, and the two halves of W and the bias as a row,
    which the three host lines have just written. -/
abbrev entryVal (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those three lines and then the launch, which therefore starts from `entryVal`. -/
theorem toLaunch (𝒱₀ : Variants) : Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- The three host lines before the launch write only their own results: argument 0 reaches the launch as it was given. -/
theorem entry_arg0 (c : Dev nD) : entryVal m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The three host lines before the launch write only their own results: argument 1 reaches the launch as it was given. -/
theorem entry_arg1 (c : Dev nD) : entryVal m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The three host lines before the launch write only their own results: argument 2 reaches the launch as it was given. -/
theorem entry_arg2 (c : Dev nD) : entryVal m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks the input windows show -/

/-- The block of window `w`'s array that its index map selects at point `t`, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input window 0: whatever the point, fetched there or not, its current staging buffer holds the block of its
    array that the index map selects there, for any proof data over the entry contents whose body leaves that block in place. -/
theorem held0_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: whatever the point, fetched there or not, its current staging buffer holds the block of its
    array that the index map selects there, for any proof data over the entry contents whose body leaves that block in place. -/
theorem held1_of {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: whatever the point, fetched there or not, its current staging buffer holds the block of its
    array that the index map selects there, for any proof data over the entry contents whose body leaves that block in place. -/
theorem held2_of {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: whatever the point, fetched there or not, its current staging buffer holds the block of its
    array that the index map selects there, for any proof data over the entry contents whose body leaves that block in place. -/
theorem held3_of {c : Dev nD} (dat : Dat τ (Elt F) Unit ℕ (UR sig nD τ) ℕ cfg0 c) (hA : dat.A 3 = entryVal m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: whatever the point, fetched there or not, its current staging buffer holds the block of its
    array that the index map selects there, for any proof data over the entry contents whose body leaves that block in place. -/
theorem held4_of {c : Dev nD} (dat : Dat τ (Elt F) Unit ℕ (UR sig nD τ) ℕ cfg0 c) (hA : dat.A 4 = entryVal m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- `j = 0`, as the body computes it from the third grid coordinate: there the scratch is zeroed before use. -/
abbrev resetsAt (i : grid0.Coords) : Prop := (Scalar.cmpi .ne (Scalar.extui (Scalar.cmpi .eq (BitVec.ofNat 32 (i 2).val) 0#32)) 0#32) = 1#1
/-- It holds exactly at the even point numbers. -/
theorem resetsAt_iff : ∀ t : Fin cfg0.N, resetsAt (grid0.coords t) ↔ t.val % 2 = 0 :=
  (by decide +kernel : ∀ t : Fin grid0.N, resetsAt (grid0.coords t) ↔ t.val % 2 = 0)

/-- `j = 1`, the last j: there the scratch is copied to the result's block. -/
abbrev emitsAt (i : grid0.Coords) : Prop := k0_cond2 i = 1#1
/-- It holds exactly at the odd point numbers. -/
theorem emitsAt_iff : ∀ t : Fin cfg0.N, emitsAt (grid0.coords t) ↔ t.val % 2 = 1 :=
  (by decide +kernel : ∀ t : Fin grid0.N, emitsAt (grid0.coords t) ↔ t.val % 2 = 1)

/-! ## Where a window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- At an even point nothing is stored into the result's buffer, -/
theorem idle5_even : ∀ t : Fin cfg0.N, t.val % 2 = 0 → cfg0.idle 5 (grid0.coords t) = true := by decide +kernel
/-- and the buffer is not written back there; -/
theorem noFlush5_even : ∀ t : Fin cfg0.N, t.val % 2 = 0 → (cfg0.win 5).flush t = false := by decide +kernel
/-- at an odd point the whole buffer is stored. -/
theorem live5_odd : ∀ t : Fin cfg0.N, t.val % 2 = 1 → cfg0.idle 5 (grid0.coords t) = false := by decide +kernel

/-! ## The memrefs the body is called with -/

abbrev mX (t : Fin cfg0.N) : Memref sig .tc .vmem S1x64x128 .f32 := win0_0.stage (cfg0.slots t 0)
abbrev hX (t : Fin cfg0.N) : (mX t).IsWhole := hstage0_0 ((cfg0.slots t 0).cast nbuf0_0)
abbrev mY (t : Fin cfg0.N) : Memref sig .tc .vmem S1x128x128 .f32 := win0_1.stage (cfg0.slots t 1)
abbrev hY (t : Fin cfg0.N) : (mY t).IsWhole := hstage0_1 ((cfg0.slots t 1).cast nbuf0_1)
abbrev mW1 (t : Fin cfg0.N) : Memref sig .tc .vmem S128x128 .f32 := win0_2.stage (cfg0.slots t 2)
abbrev hW1 (t : Fin cfg0.N) : (mW1 t).IsWhole := hstage0_2 ((cfg0.slots t 2).cast nbuf0_2)
abbrev mW2 (t : Fin cfg0.N) : Memref sig .tc .vmem S128x128 .f32 := win0_3.stage (cfg0.slots t 3)
abbrev hW2 (t : Fin cfg0.N) : (mW2 t).IsWhole := hstage0_3 ((cfg0.slots t 3).cast nbuf0_3)
abbrev mB (t : Fin cfg0.N) : Memref sig .tc .vmem S1x128 .f32 := win0_4.stage (cfg0.slots t 4)
abbrev hB (t : Fin cfg0.N) : (mB t).IsWhole := hstage0_4 ((cfg0.slots t 4).cast nbuf0_4)
abbrev mO (t : Fin cfg0.N) : Memref sig .tc .vmem S1x64x128 .f32 := win0_5.stage (cfg0.slots t 5)
abbrev hO (t : Fin cfg0.N) : (mO t).IsWhole := hstage0_5 ((cfg0.slots t 5).cast nbuf0_5)
/-- The scratch that carries the partial sums. -/
abbrev mAcc : Memref sig .tc .vmem S64x128 .f32 := Memref.whole cc0_scratch0
/-- The views through which the result buffer's and the scratch's contents are stated. -/
abbrev vO : View sig .tc .vmem S1x64x128 .f32 := (Memref.whole cc0_stg5_0 : Memref sig .tc .vmem S1x64x128 .f32).view
abbrev vAcc : View sig .tc .vmem S64x128 .f32 := mAcc.view

/-- Of the core's scoped buffers the windows do not stage there is only the scratch: the region keeps it, at some contents. -/
theorem scratchKept_eq (c : Dev nD) :
    (Pipeline.scopedRest (Ix := Unit) (Name := ℕ) (U := UR sig nD τ) (Lvl := ℕ) (Val := Elt F) spec0 c : sProp 𝕄)
      = iprop(∃ d, owns (c : Thread nD τ) mAcc fullShare d) := by
  rw [scopedRest0_eq]; simp only [mAcc, owns_whole]; try rfl

end Cert.Kernel.Rel

end
-- ==== Proof.BitsRunReset.lean ====
/-
  The body at a point with j = 0, run once on arbitrary whole staging memrefs.

  There the scratch is first overwritten with zeros, then the point's 128 edge terms per (row, feature) are added to it;
  nothing is stored into the result's buffer, which is handed back untouched. The run records what was stored into the
  scratch as a list of stored pieces (found while the body is executed symbolically); what the list amounts to is read in
  a later module.
-/
import proofs.«131842_j10565619548782_1_alg».proof.Proof.BitsLaunchBase

set_option maxRecDepth 16384

noncomputable section

namespace Cert.Kernel.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the scratch is reset and nothing is emitted: from the five input buffers at their contents, the
    result's buffer at any contents `xo` and the scratch at any contents, the body runs and leaves the inputs and the
    result's buffer as they were and the scratch with the pieces `LS` stored. -/
noncomputable def runReset (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : resetsAt i) (he : ¬emitsAt i) (x3 : Vec F S1x64x128 .f32) (x4 : Vec F S1x128x128 .f32) (x5 : Vec F S128x128 .f32) (x6 : Vec F S128x128 .f32) (x7 : Vec F S1x128 .f32) :
    { LS : List (View.Piece (Elt F) S64x128 .f32) //
      ∀ (xo : Vec F S1x64x128 .f32) (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xo ∗ (∃ d, owns (c : Thread nD τ) a9 fullShare d)
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__relational_kernel i a3 h3 a4 h4 a5 h5 a6 h6 a7 h7 a8 h8 a9 h9) K } := by
  refine ⟨?_, fun xo E K => ?run⟩
  case run =>
    simp only [cc0__relational_kernel_eq_skeleton]; unfold cc0__relational_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hr | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; iexact H9

end Cert.Kernel.Rel

end
-- ==== Proof.BitsRunEmit.lean ====
/-
  The body at a point with j = 1, run once on arbitrary whole staging memrefs.

  There the scratch arrives holding the sums of the point before; the point's 128 edge terms per (row, feature) are added
  to it, and the scratch is then copied into the result's buffer, all of which is stored. The run records what was stored
  into the scratch and into the result's buffer as lists of stored pieces.
-/
import proofs.«131842_j10565619548782_1_alg».proof.Proof.BitsLaunchBase

set_option maxRecDepth 16384

noncomputable section

namespace Cert.Kernel.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where nothing is reset and the result is emitted: from the five input buffers at their contents, the
    result's buffer at anything and the scratch at the contents `xs` the point before left, the body runs and leaves the
    inputs as they were, the result's buffer with the pieces `LO` stored and the scratch with the pieces `LS` stored. -/
noncomputable def runEmit (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : ¬resetsAt i) (he : emitsAt i) (x3 : Vec F S1x64x128 .f32) (x4 : Vec F S1x128x128 .f32) (x5 : Vec F S128x128 .f32) (x6 : Vec F S128x128 .f32) (x7 : Vec F S1x128 .f32) (xs : Vec F S64x128 .f32) :
    Σ' (LO : List (View.Piece (Elt F) S1x64x128 .f32)), { LS : List (View.Piece (Elt F) S64x128 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xs
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__relational_kernel i a3 h3 a4 h4 a5 h5 a6 h6 a7 h7 a8 h8 a9 h9) K } := by
  refine ⟨?_, ?_, fun E K => ?run⟩
  case run =>
    simp only [cc0__relational_kernel_eq_skeleton]; unfold cc0__relational_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := h3.eq_unread hf3; obtain rfl := h4.eq_unread hf4; obtain rfl := h5.eq_unread hf5
    obtain rfl := h6.eq_unread hf6; obtain rfl := h7.eq_unread hf7; obtain rfl := h9.eq_unread hf9
    sl_exec (disch := first | exact hr | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    iexists _; iexact H9

end Cert.Kernel.Rel

end
-- ==== Proof.BitsLaunchData.lean ====
/-
  The launch of the pairwise-sum kernel, second part: what the scratch and the result's buffer hold after every point,
  and that the body, run at any point from what the point before left, leaves exactly that.

  Points come in pairs (t even, t + 1): the even point zeroes the scratch and adds its 128 edge terms, the odd point adds
  its own 128 and copies the scratch out. `stateAt` follows the pair by recursion on the point number; the proof data of
  the launch name each input window's block, the result buffer's contents after each point and the scratch between
  points. The input array x is read by two windows at once: each holds one half of the right to read it.
-/
import proofs.«131842_j10565619548782_1_alg».proof.Proof.BitsRunReset
import proofs.«131842_j10565619548782_1_alg».proof.Proof.BitsRunEmit

set_option maxRecDepth 16384

noncomputable section

namespace Cert.Kernel.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a point of the grid -/

/-- The reset run at an even point `t`, on the point's staging memrefs and the blocks its windows show. -/
abbrev resetAt (c : Dev nD) (t : Fin cfg0.N) (h : t.val % 2 = 0) :=
  runReset (F := F) c (grid0.coords t) (mX t) (hX t) (mY t) (hY t) (mW1 t) (hW1 t) (mW2 t) (hW2 t) (mB t) (hB t) (mO t) (hO t) mAcc (Memref.isWhole_whole _)
    ((resetsAt_iff t).mpr h) (fun e => by have := (emitsAt_iff t).mp e; omega) (blockAt m c 0 t) (blockAt m c 1 t) (blockAt m c 2 t) (blockAt m c 3 t) (blockAt m c 4 t)

/-- The emitting run at an odd point `t`, the scratch arriving at `xs`. -/
abbrev emitAt (c : Dev nD) (t : Fin cfg0.N) (h : t.val % 2 = 1) (xs : Vec F S64x128 .f32) :=
  runEmit (F := F) c (grid0.coords t) (mX t) (hX t) (mY t) (hY t) (mW1 t) (hW1 t) (mW2 t) (hW2 t) (mB t) (hB t) (mO t) (hO t) mAcc (Memref.isWhole_whole _)
    (fun e => by have := (resetsAt_iff t).mp e; omega) ((emitsAt_iff t).mpr h) (blockAt m c 0 t) (blockAt m c 1 t) (blockAt m c 2 t) (blockAt m c 3 t) (blockAt m c 4 t) xs

/-- The reset run's stores into the scratch reach every element of it. -/
theorem resetCovers (c : Dev nD) (t : Fin cfg0.N) (h : t.val % 2 = 0) (y : S64x128.Idx) :
    ∃ pc ∈ (resetAt m c t h).1, y ∈ pc.1.set :=
  View.cover_of_tiledL (resetAt m c t h).1 S64x128.size (by sl_kernel_rfl) y

/-- What the scratch holds after an even point. -/
def accResetAt (c : Dev nD) (t : Fin cfg0.N) (h : t.val % 2 = 0) : Vec F S64x128 .f32 :=
  vAcc.read (Elt F) (vAcc.writes (Elt F) vAcc.junk (resetAt m c t h).1)

/-- The emitting run's stores into the scratch reach every element of it, -/
theorem emitCoversAcc (c : Dev nD) (t : Fin cfg0.N) (h : t.val % 2 = 1) (xs : Vec F S64x128 .f32) (y : S64x128.Idx) :
    ∃ pc ∈ (emitAt m c t h xs).2.1, y ∈ pc.1.set :=
  View.cover_of_tiledL (emitAt m c t h xs).2.1 S64x128.size (by sl_kernel_rfl) y

/-- and its stores into the result's buffer every element of that. -/
theorem emitCoversOut (c : Dev nD) (t : Fin cfg0.N) (h : t.val % 2 = 1) (xs : Vec F S64x128 .f32) (y : S1x64x128.Idx) :
    ∃ pc ∈ (emitAt m c t h xs).1, y ∈ pc.1.set :=
  View.cover_of_tiledL (emitAt m c t h xs).1 S1x64x128.size (by sl_kernel_rfl) y

/-- What the scratch holds after an odd point that found it at `xs`. -/
def accEmitAt (c : Dev nD) (t : Fin cfg0.N) (h : t.val % 2 = 1) (xs : Vec F S64x128 .f32) : Vec F S64x128 .f32 :=
  vAcc.read (Elt F) (vAcc.writes (Elt F) vAcc.junk (emitAt m c t h xs).2.1)

/-- What the result's buffer holds after an odd point that found the scratch at `xs`. -/
def outEmitAt (c : Dev nD) (t : Fin cfg0.N) (h : t.val % 2 = 1) (xs : Vec F S64x128 .f32) : Vec F S1x64x128 .f32 :=
  vO.read (Elt F) (vO.writes (Elt F) vO.junk (emitAt m c t h xs).1)

/-! ## The state after each point -/

/-- After point `n`: the result buffer's contents (named only after an odd point; after an even one the buffer is not
    consulted and the component is a placeholder) and the scratch's. An odd point starts from the scratch its even
    predecessor left. -/
def stateAt (c : Dev nD) : (n : ℕ) → n < cfg0.N → Vec F S1x64x128 .f32 × Vec F S64x128 .f32
  | 0, hn => (vO.read (Elt F) vO.junk, accResetAt m c ⟨0, hn⟩ (Nat.zero_mod 2))
  | n + 1, hn =>
    if h : (n + 1) % 2 = 0 then (vO.read (Elt F) vO.junk, accResetAt m c ⟨n + 1, hn⟩ h)
    else (outEmitAt m c ⟨n + 1, hn⟩ (Nat.mod_two_ne_zero.mp h) (stateAt c n (Nat.lt_of_succ_lt hn)).2,
          accEmitAt m c ⟨n + 1, hn⟩ (Nat.mod_two_ne_zero.mp h) (stateAt c n (Nat.lt_of_succ_lt hn)).2)

theorem stateAt_even (c : Dev nD) (t : Fin cfg0.N) (h : t.val % 2 = 0) :
    stateAt m c t.val t.isLt = (vO.read (Elt F) vO.junk, accResetAt m c t h) := by
  obtain ⟨n, hn⟩ := t
  cases n with
  | zero => exact rfl
  | succ n => exact (dif_pos h).trans rfl

theorem stateAt_odd (c : Dev nD) (t : Fin cfg0.N) (h : t.val % 2 = 1) :
    stateAt m c t.val t.isLt
      = (outEmitAt m c t h (stateAt m c (t.val - 1) (Nat.lt_of_le_of_lt (Nat.sub_le _ _) t.isLt)).2,
         accEmitAt m c t h (stateAt m c (t.val - 1) (Nat.lt_of_le_of_lt (Nat.sub_le _ _) t.isLt)).2) := by
  obtain ⟨n, hn⟩ := t
  cases n with
  | zero => exfalso; dsimp only at h; omega
  | succ n => exact (dif_neg (by dsimp only at h; omega)).trans rfl

/-- What the region keeps before point `n`: before the first point the scratch at anything; afterwards the scratch at what
    the point before left in it. -/
def keptAt (c : Dev nD) : (n : ℕ) → n ≤ cfg0.N → sProp 𝕄
  | 0, _ => Pipeline.scopedRest spec0 c
  | n + 1, hn => owns (c : Thread nD τ) mAcc fullShare ((stateAt m c n hn).2)

theorem keptAt_zero (c : Dev nD) (n : ℕ) (h : n ≤ cfg0.N) (hz : n = 0) : keptAt m c n h = Pipeline.scopedRest spec0 c := by
  subst hz; rfl

theorem keptAt_succ (c : Dev nD) (n : ℕ) (hn : n < cfg0.N) :
    keptAt m c (n + 1) hn = owns (c : Thread nD τ) mAcc fullShare ((stateAt m c n hn).2) := rfl

theorem keptAt_pos (c : Dev nD) (n : ℕ) (h : n ≤ cfg0.N) (hz : n ≠ 0) :
    keptAt m c n h = owns (c : Thread nD τ) mAcc fullShare ((stateAt m c (n - 1) (by omega)).2) := by
  cases n with
  | zero => exact absurd rfl hz
  | succ n => rfl

/-! ## The proof data of the launch -/

/-- On core `c`: the arrays as the launch finds them; after the body at point `t` each input's buffer at its block and the
    result's at `stateAt`'s first component; between points `keptAt`; nothing owed. The array x is held in two halves, one
    by each of the two windows that read it; every other array whole by its one window. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => (stateAt m c t.val t.isLt).1
  Φ t := keptAt m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = entryVal m c (Pipeline.arrRef spec0 w) := by
  dsimp only [dats]

theorem kept_castSucc (c : Dev nD) (t : Fin cfg0.N) :
    (dats m 0 c).Φ t.castSucc = keptAt m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = (stateAt m c t.val t.isLt).1 := by dsimp only [dats]

theorem held0 (c : Dev nD) (t : Fin cfg0.N) (d) : (dats m 0 c).before 0 t d = blockAt m c 0 t :=
  held0_of m (dats m 0 c) (A_eq m c 0) (after0 m c) t d
theorem held1 (c : Dev nD) (t : Fin cfg0.N) (d) : (dats m 0 c).before 1 t d = blockAt m c 1 t :=
  held1_of m (dats m 0 c) (A_eq m c 1) (after1 m c) t d
theorem held2 (c : Dev nD) (t : Fin cfg0.N) (d) : (dats m 0 c).before 2 t d = blockAt m c 2 t :=
  held2_of m (dats m 0 c) (A_eq m c 2) (after2 m c) t d
theorem held3 (c : Dev nD) (t : Fin cfg0.N) (d) : (dats m 0 c).before 3 t d = blockAt m c 3 t :=
  held3_of m (dats m 0 c) (A_eq m c 3) (after3 m c) t d
theorem held4 (c : Dev nD) (t : Fin cfg0.N) (d) : (dats m 0 c).before 4 t d = blockAt m c 4 t :=
  held4_of m (dats m 0 c) (A_eq m c 4) (after4 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mY t) fullShare ((dats m 0 c).before 1 t d))
    ∗ (∃ d, owns (c : Thread nD τ) (mW1 t) fullShare ((dats m 0 c).before 2 t d))
    ∗ (∃ d, owns (c : Thread nD τ) (mW2 t) fullShare ((dats m 0 c).before 3 t d))
    ∗ (∃ d, owns (c : Thread nD τ) (mB t) fullShare ((dats m 0 c).before 4 t d))
    ∗ (∃ d, owns (c : Thread nD τ) (mO t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the parity of the point number says which run applies;
    the scratch arrives at what the point before left (at anything before the first point) and leaves at this point's
    contents, by the runs' covers; the result's buffer is handed back untouched at an even point and wholly stored at
    an odd one; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).owesAt () t.succ = (dats m 0 c).owesAt () t.castSucc from rfl]
  rw [show (dats m 0 c).Φ t.succ = keptAt m c (t.val + 1) t.isLt from rfl, keptAt_succ]
  rw [show (dats m 0 c).leavesExact 0 t = owns (c : Thread nD τ) (mX t) fullShare ((dats m 0 c).after 0 t) from by
    unfold Dat.leavesExact; rw [live0 t], after0]
  rw [show (dats m 0 c).leavesExact 1 t = owns (c : Thread nD τ) (mY t) fullShare ((dats m 0 c).after 1 t) from by
    unfold Dat.leavesExact; rw [live1 t], after1]
  rw [show (dats m 0 c).leavesExact 2 t = owns (c : Thread nD τ) (mW1 t) fullShare ((dats m 0 c).after 2 t) from by
    unfold Dat.leavesExact; rw [live2 t], after2]
  rw [show (dats m 0 c).leavesExact 3 t = owns (c : Thread nD τ) (mW2 t) fullShare ((dats m 0 c).after 3 t) from by
    unfold Dat.leavesExact; rw [live3 t], after3]
  rw [show (dats m 0 c).leavesExact 4 t = owns (c : Thread nD τ) (mB t) fullShare ((dats m 0 c).after 4 t) from by
    unfold Dat.leavesExact; rw [live4 t], after4]
  have hN : t.val < 64 := lt_of_lt_of_eq t.isLt (show cfg0.N = 64 from N_0)
  by_cases h0 : t.val % 2 = 0
  · rw [Dat.leavesExact_idle (dats m 0 c) 5 t (idle5_even t h0) (noFlush5_even t h0)]
    rw [stateAt_even m c t h0]
    unfold accResetAt; (try dsimp only)
    by_cases hz : t.val = 0
    · rw [kept_castSucc m c t, keptAt_zero m c _ _ hz, scratchKept_eq]
      iintro ⟨HS, Ho, ⟨%d0, H0⟩, ⟨%d1, H1⟩, ⟨%d2, H2⟩, ⟨%d3, H3⟩, ⟨%d4, H4⟩, ⟨%d5, H5⟩⟩
      iapply ((resetAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (resetCovers m c t h0)
      isplitl [Ho]; · iexact Ho
      isplitl [H0]; · iexact H0
      isplitl [H1]; · iexact H1
      isplitl [H2]; · iexact H2
      isplitl [H3]; · iexact H3
      isplitl [H4]; · iexact H4
      iexists _; iexact H5
    · rw [kept_castSucc m c t, keptAt_pos m c _ _ hz]
      iintro ⟨HS, Ho, ⟨%d0, H0⟩, ⟨%d1, H1⟩, ⟨%d2, H2⟩, ⟨%d3, H3⟩, ⟨%d4, H4⟩, ⟨%d5, H5⟩⟩
      iapply ((resetAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (resetCovers m c t h0)
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := Nat.mod_two_ne_zero.mp h0
    have hz : t.val ≠ 0 := by omega
    rw [show (dats m 0 c).leavesExact 5 t = owns (c : Thread nD τ) (mO t) fullShare ((dats m 0 c).after 5 t) from by
      unfold Dat.leavesExact; rw [live5_odd t h1], after5]
    rw [stateAt_odd m c t h1]
    unfold outEmitAt accEmitAt; (try dsimp only)
    rw [kept_castSucc m c t, keptAt_pos m c _ _ hz]
    iintro ⟨HS, Ho, ⟨%d0, H0⟩, ⟨%d1, H1⟩, ⟨%d2, H2⟩, ⟨%d3, H3⟩, ⟨%d4, H4⟩, ⟨%d5, H5⟩⟩
    iapply ((emitAt m c t h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (emitCoversAcc m c t h1 _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (emitCoversOut m c t h1 _)

/-- The body obligation of the launch rule, at every point. -/
theorem body_obligation (c : Dev nD) : BodyObligation (dats (F := F) m 0 c) (defs₀ (F := F)) Variants.none () Set.univ := fun t => by
  rw [bigSep_W0, bigSep_W0]
  exact sound_body m c t

/-- What the launch hands the region is what it keeps before the first point. -/
theorem keeps_in (c : Dev nD) : Pipeline.scopedRest spec0 c ⊢ (dats m 0 c).Φ 0 := by
  rw [show (dats m 0 c).Φ 0 = keptAt m c 0 (Nat.zero_le _) from rfl, keptAt_zero m c 0 _ rfl]
  try exact Idealize.SL.BI.Entails.refl _

/-- After the last point the scratch's contents are forgotten again. -/
theorem keeps_out (c : Dev nD) : (dats m 0 c).Φ (Fin.last cfg0.N) ⊢ Pipeline.scopedRest spec0 c := by
  have hN : cfg0.N = 64 := N_0
  rw [show (dats m 0 c).Φ (Fin.last cfg0.N) = keptAt m c (Fin.last cfg0.N).val (Nat.le_of_lt_succ (Fin.last cfg0.N).isLt) from rfl,
    keptAt_pos m c _ _ (by rw [Fin.val_last]; omega), scratchKept_eq]
  iintro HS
  iexists _; iexact HS

end Cert.Kernel.Rel

end
-- ==== Proof.BitsLaunchRun.lean ====
/-
  The launch of the pairwise-sum kernel, last part: the whole program runs to its end, and where its arrays stand then.

  The array x is handed to the kernel through two windows. When the launch begins its buffer is held whole; the right to
  read it is cut in two halves, one for each window, and the launch rule for windows that share an array runs the grid
  from there. At the end every window's array stands at what the write-backs made of it (the inputs: unchanged), and the
  arrays no window stages (W and the bias) stand as the launch found them.
-/
import proofs.«131842_j10565619548782_1_alg».proof.Proof.BitsLaunchData

set_option maxRecDepth 16384

noncomputable section

namespace Cert.Kernel.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array, held through its whole view at the window's share, is its buffer held at that share, at the entry
    contents. -/
theorem arrayHeld_eq (c : Dev nD) (w : Fin cfg0.W) (q : PosShare TreeShare) (hq : (dats m 0 c).share w = q) :
    (((cfg0.win w).arr.view.loc (c : Thread nD τ)) ↦[(cfg0.win w).arr.view.set]{(dats m 0 c).share w} (dats m 0 c).arrAt w 0 : sProp 𝕄)
      = (((c : Thread nD τ).loc (Pipeline.arrRef spec0 w)) ↦{q} entryVal m c (Pipeline.arrRef spec0 w)) := by
  rw [(arr_whole0 w).set_eq_univ, hq, show (dats m 0 c).arrAt w 0 = entryVal m c (Pipeline.arrRef spec0 w) from A_eq m c w]

theorem share_0 (c : Dev nD) : (dats m 0 c).share 0 = fullShare.left := by
  unfold Dat.share; rw [if_neg (show ¬((cfg0.win 0).isOut = true) from by decide)]; dsimp only [dats]
theorem share_1 (c : Dev nD) : (dats m 0 c).share 1 = fullShare.right := by
  unfold Dat.share; rw [if_neg (show ¬((cfg0.win 1).isOut = true) from by decide)]; dsimp only [dats]
theorem share_2 (c : Dev nD) : (dats m 0 c).share 2 = fullShare := by
  unfold Dat.share; rw [if_neg (show ¬((cfg0.win 2).isOut = true) from by decide)]; dsimp only [dats]
theorem share_3 (c : Dev nD) : (dats m 0 c).share 3 = fullShare := by
  unfold Dat.share; rw [if_neg (show ¬((cfg0.win 3).isOut = true) from by decide)]; dsimp only [dats]
theorem share_4 (c : Dev nD) : (dats m 0 c).share 4 = fullShare := by
  unfold Dat.share; rw [if_neg (show ¬((cfg0.win 4).isOut = true) from by decide)]; dsimp only [dats]
theorem share_5 (c : Dev nD) : (dats m 0 c).share 5 = fullShare := by
  unfold Dat.share; rw [if_pos (show (cfg0.win 5).isOut = true from by decide)]

/-- The six windows' arrays at their shares, written out: x twice (a half each), then the four arrays with one window. -/
theorem arrays_eq6 (c : Dev nD) :
    ((dats m 0 c).arrays ((dats m 0 c).arrAt · 0) : sProp 𝕄)
      = iprop((((c : Thread nD τ).loc main_arg0) ↦{fullShare.left} entryVal m c main_arg0)
          ∗ (((c : Thread nD τ).loc main_arg0) ↦{fullShare.right} entryVal m c main_arg0)
          ∗ (((c : Thread nD τ).loc main_v0) ↦{fullShare} entryVal m c main_v0)
          ∗ (((c : Thread nD τ).loc main_v1) ↦{fullShare} entryVal m c main_v1)
          ∗ (((c : Thread nD τ).loc main_v2) ↦{fullShare} entryVal m c main_v2)
          ∗ (((c : Thread nD τ).loc main_v3) ↦{fullShare} entryVal m c main_v3)) := by
  unfold Dat.arrays
  rw [bigSep_W0]
  rw [arrayHeld_eq m c 0 _ (share_0 m c), arrayHeld_eq m c 1 _ (share_1 m c), arrayHeld_eq m c 2 _ (share_2 m c),
    arrayHeld_eq m c 3 _ (share_3 m c), arrayHeld_eq m c 4 _ (share_4 m c), arrayHeld_eq m c 5 _ (share_5 m c)]

/-- The buffers behind the six windows' arrays are five: x (behind two windows), the two halves of W, the bias row, the result. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg0, main_v0, main_v1, main_v2, main_v3] (by decide) (by decide) _

/-- The five buffers behind the six windows' arrays, held whole at the entry contents, are the six windows' arrays at
    their shares: the buffer of x is cut into its left and right halves for windows 0 and 1. -/
theorem arrays_in (c : Dev nD) :
    (Pipeline.arrBufs spec0 c (entryVal m c) : sProp 𝕄) ⊢ (dats m 0 c).arrays ((dats m 0 c).arrAt · 0) := by
  rw [arrBufs_eq, arrays_eq6]
  iintro ⟨Hx, Hv0, Hv1, Hv2, Hv3⟩
  ihave Hx2 := (pointsTo_share (PosShare.mem_left_op_right fullShare)).1 $$ Hx
  icases Hx2 with ⟨Hl, Hr⟩
  isplitl [Hl]; · iexact Hl
  isplitl [Hr]; · iexact Hr
  isplitl [Hv0]; · iexact Hv0
  isplitl [Hv1]; · iexact Hv1
  isplitl [Hv2]; · iexact Hv2
  iexact Hv3

set_option backward.isDefEq.respectTransparency.types false in
/-- From any memory with zero counters every weakly fair execution of the program terminates without a fault, with every
    window's array at what the proof data compute for it after the last point and every other unscoped buffer as the
    launch found it. -/
theorem run_main : θ_run defs (onTc (τ := τ) (main (F := F))) (s₀ m ρ) (Pipeline.FramePost cfgs (dats m) 0 (entryVal m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entryVal m) (hmain := toLaunch m Variants.none)
    (hsplit := arrays_in m)
    (X := fun _ => iprop(emp)) (Y := fun _ => iprop(emp))
    (Z := fun c => Pipeline.unscopedRest (Ix := Unit) (Name := ℕ) (U := UR sig nD τ) (Lvl := ℕ) spec0 c (entryVal m c))
    (hX := fun c => by
      iintro HU
      isplitr; · iempintro
      iexact HU)
    (hin := fun c => (show _ ⊢ (Pipeline.scopedRest spec0 c : sProp 𝕄) from by iintro ⟨-, HR⟩; iexact HR).trans (keeps_in m c))
    (hout := fun c => (keeps_out m c).trans (by
      iintro HR
      isplitr; · iempintro
      iexact HR))
    (QY := fun c s => ∀ b ∈ Pipeline.restRefs sig spec0, s.mem ((c.tc : Thread nD τ).loc b) = entryVal m c b)
    (hY := fun c s' => by
      iintro ⟨-, HU, HSI⟩
      unfold Pipeline.unscopedRest
      imodintro
      iapply (pointsTo_read_all (Pipeline.restRefs sig spec0) (fun b => (c.tc : Thread nD τ).loc b) (entryVal m c) s')
      isplitl [HU] <;> iassumption)
    (hQ := fun s h c => ⟨(h c).1, (h c).2⟩)

/-- info: 'Cert.Kernel.Rel.run_main' depends on axioms: [propext, Classical.choice, Quot.sound] -/
#guard_msgs in #print axioms run_main

/-- The program runs, faults nowhere, and leaves its three argument arrays as it found them: x is an input of two windows,
    W and the bias are staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.Kernel.Rel

end
-- ==== Proof.IdealLaunchBase.lean ====
/-
  The launch of the pairwise-sum kernel, first part: what the grid, the windows and the two `pl.when` conditions are.

  The kernel runs on a grid of 8 × 4 × 2 points (b, i, j); point number t has j = t mod 2. Two of its six windows read
  the SAME array x — window 0 the 64 rows of block i, window 1 the 128 rows of block j — windows 2, 3 and 4 read the two
  halves of W and the bias row (each the whole of a small array the host lines before the launch produce), window 5 is the
  result. A scratch of 64 × 128 numbers is carried from a point with j = 0 (where it is first zeroed) to the point with
  j = 1 after it (where it is copied to the result's block).

  This module states: the contents every array has when the launch begins (`entryVal`), that the host lines lead to the
  launch with those contents, what each input window's staging buffer holds at a point (its block: `blockAt`), the two
  conditions in closed form over the point number, and where the result window is idle.
-/
import proofs.«131842_j10565619548782_1_alg».proof.Proof.Gen.KernelIdeal.Launch
import proofs.«131842_j10565619548782_1_alg».proof.Proof.Gen.KernelIdeal.Skeleton
import proofs.«131842_j10565619548782_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the launch -/

/-- What core `c`'s buffers hold when the launch begins: the given arrays, and the two halves of W and the bias as a row,
    which the three host lines have just written. -/
abbrev entryVal (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is those three lines and then the launch, which therefore starts from `entryVal`. -/
theorem toLaunch (𝒱₀ : Variants) : Pipeline.HMain (Ix := Unit) (Name := ℕ) (U := UR sig nD τ) (Lvl := ℕ) cfgs 0 defs₀ 𝒱₀ m (main (F := F)) (entryVal m) :=
  Pipeline.hmain_prefix cfgs 0 defs₀ 𝒱₀ m main hostOps0 hostOps0_sub hostOps0_fresh main_chain

/-- The three host lines before the launch write only their own results: argument 0 reaches the launch as it was given. -/
theorem entry_arg0 (c : Dev nD) : entryVal m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The three host lines before the launch write only their own results: argument 1 reaches the launch as it was given. -/
theorem entry_arg1 (c : Dev nD) : entryVal m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The three host lines before the launch write only their own results: argument 2 reaches the launch as it was given. -/
theorem entry_arg2 (c : Dev nD) : entryVal m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The blocks the input windows show -/

/-- The block of window `w`'s array that its index map selects at point `t`, read off the entry contents. -/
def blockAt (c : Dev nD) (w : Fin cfg0.W) (t : Fin cfg0.N) : ((cfg0.win w).xblock (cfg0.grid.coords t)).Idx → Elt F (cfg0.win w).elt :=
  ((cfg0.win w).blk t).view.read (Elt F) (entryVal m c (Pipeline.arrRef spec0 w))

/-- Input window 0: whatever the point, fetched there or not, its current staging buffer holds the block of its
    array that the index map selects there, for any proof data over the entry contents whose body leaves that block in place. -/
theorem held0_of {c : Dev nD} (dat : Dat τ (Elt F) Unit ℕ (UR sig nD τ) ℕ cfg0 c) (hA : dat.A 0 = entryVal m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: whatever the point, fetched there or not, its current staging buffer holds the block of its
    array that the index map selects there, for any proof data over the entry contents whose body leaves that block in place. -/
theorem held1_of {c : Dev nD} (dat : Dat τ (Elt F) Unit ℕ (UR sig nD τ) ℕ cfg0 c) (hA : dat.A 1 = entryVal m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: whatever the point, fetched there or not, its current staging buffer holds the block of its
    array that the index map selects there, for any proof data over the entry contents whose body leaves that block in place. -/
theorem held2_of {c : Dev nD} (dat : Dat τ (Elt F) Unit ℕ (UR sig nD τ) ℕ cfg0 c) (hA : dat.A 2 = entryVal m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: whatever the point, fetched there or not, its current staging buffer holds the block of its
    array that the index map selects there, for any proof data over the entry contents whose body leaves that block in place. -/
theorem held3_of {c : Dev nD} (dat : Dat τ (Elt F) Unit ℕ (UR sig nD τ) ℕ cfg0 c) (hA : dat.A 3 = entryVal m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: whatever the point, fetched there or not, its current staging buffer holds the block of its
    array that the index map selects there, for any proof data over the entry contents whose body leaves that block in place. -/
theorem held4_of {c : Dev nD} (dat : Dat τ (Elt F) Unit ℕ (UR sig nD τ) ℕ cfg0 c) (hA : dat.A 4 = entryVal m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions -/

/-- `j = 0`, as the body computes it from the third grid coordinate: there the scratch is zeroed before use. -/
abbrev resetsAt (i : grid0.Coords) : Prop := (Scalar.cmpi .ne (Scalar.extui (Scalar.cmpi .eq (BitVec.ofNat 32 (i 2).val) 0#32)) 0#32) = 1#1
/-- It holds exactly at the even point numbers. -/
theorem resetsAt_iff : ∀ t : Fin cfg0.N, resetsAt (grid0.coords t) ↔ t.val % 2 = 0 :=
  (by decide +kernel : ∀ t : Fin grid0.N, resetsAt (grid0.coords t) ↔ t.val % 2 = 0)

/-- `j = 1`, the last j: there the scratch is copied to the result's block. -/
abbrev emitsAt (i : grid0.Coords) : Prop := k0_cond2 i = 1#1
/-- It holds exactly at the odd point numbers. -/
theorem emitsAt_iff : ∀ t : Fin cfg0.N, emitsAt (grid0.coords t) ↔ t.val % 2 = 1 :=
  (by decide +kernel : ∀ t : Fin grid0.N, emitsAt (grid0.coords t) ↔ t.val % 2 = 1)

/-! ## Where a window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- At an even point nothing is stored into the result's buffer, -/
theorem idle5_even : ∀ t : Fin cfg0.N, t.val % 2 = 0 → cfg0.idle 5 (grid0.coords t) = true := by decide +kernel
/-- and the buffer is not written back there; -/
theorem noFlush5_even : ∀ t : Fin cfg0.N, t.val % 2 = 0 → (cfg0.win 5).flush t = false := by decide +kernel
/-- at an odd point the whole buffer is stored. -/
theorem live5_odd : ∀ t : Fin cfg0.N, t.val % 2 = 1 → cfg0.idle 5 (grid0.coords t) = false := by decide +kernel

/-! ## The memrefs the body is called with -/

abbrev mX (t : Fin cfg0.N) : Memref sig .tc .vmem S1x64x128 .f32 := win0_0.stage (cfg0.slots t 0)
abbrev hX (t : Fin cfg0.N) : (mX t).IsWhole := hstage0_0 ((cfg0.slots t 0).cast nbuf0_0)
abbrev mY (t : Fin cfg0.N) : Memref sig .tc .vmem S1x128x128 .f32 := win0_1.stage (cfg0.slots t 1)
abbrev hY (t : Fin cfg0.N) : (mY t).IsWhole := hstage0_1 ((cfg0.slots t 1).cast nbuf0_1)
abbrev mW1 (t : Fin cfg0.N) : Memref sig .tc .vmem S128x128 .f32 := win0_2.stage (cfg0.slots t 2)
abbrev hW1 (t : Fin cfg0.N) : (mW1 t).IsWhole := hstage0_2 ((cfg0.slots t 2).cast nbuf0_2)
abbrev mW2 (t : Fin cfg0.N) : Memref sig .tc .vmem S128x128 .f32 := win0_3.stage (cfg0.slots t 3)
abbrev hW2 (t : Fin cfg0.N) : (mW2 t).IsWhole := hstage0_3 ((cfg0.slots t 3).cast nbuf0_3)
abbrev mB (t : Fin cfg0.N) : Memref sig .tc .vmem S1x128 .f32 := win0_4.stage (cfg0.slots t 4)
abbrev hB (t : Fin cfg0.N) : (mB t).IsWhole := hstage0_4 ((cfg0.slots t 4).cast nbuf0_4)
abbrev mO (t : Fin cfg0.N) : Memref sig .tc .vmem S1x64x128 .f32 := win0_5.stage (cfg0.slots t 5)
abbrev hO (t : Fin cfg0.N) : (mO t).IsWhole := hstage0_5 ((cfg0.slots t 5).cast nbuf0_5)
/-- The scratch that carries the partial sums. -/
abbrev mAcc : Memref sig .tc .vmem S64x128 .f32 := Memref.whole cc0_scratch0
/-- The views through which the result buffer's and the scratch's contents are stated. -/
abbrev vO : View sig .tc .vmem S1x64x128 .f32 := (Memref.whole cc0_stg5_0 : Memref sig .tc .vmem S1x64x128 .f32).view
abbrev vAcc : View sig .tc .vmem S64x128 .f32 := mAcc.view

/-- Of the core's scoped buffers the windows do not stage there is only the scratch: the region keeps it, at some contents. -/
theorem scratchKept_eq (c : Dev nD) :
    (Pipeline.scopedRest (Ix := Unit) (Name := ℕ) (U := UR sig nD τ) (Lvl := ℕ) (Val := Elt F) spec0 c : sProp 𝕄)
      = iprop(∃ d, owns (c : Thread nD τ) mAcc fullShare d) := by
  rw [scopedRest0_eq]; simp only [mAcc, owns_whole]; try rfl

end Cert.KernelIdeal.Rel

end
-- ==== Proof.IdealRunReset.lean ====
/-
  The body at a point with j = 0, run once on arbitrary whole staging memrefs.

  There the scratch is first overwritten with zeros, then the point's 128 edge terms per (row, feature) are added to it;
  nothing is stored into the result's buffer, which is handed back untouched. The run records what was stored into the
  scratch as a list of stored pieces (found while the body is executed symbolically); what the list amounts to is read in
  a later module.
-/
import proofs.«131842_j10565619548782_1_alg».proof.Proof.IdealLaunchBase

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the scratch is reset and nothing is emitted: from the five input buffers at their contents, the
    result's buffer at any contents `xo` and the scratch at any contents, the body runs and leaves the inputs and the
    result's buffer as they were and the scratch with the pieces `LS` stored. -/
noncomputable def runReset (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : resetsAt i) (he : ¬emitsAt i) (x3 : Vec F S1x64x128 .f32) (x4 : Vec F S1x128x128 .f32) (x5 : Vec F S128x128 .f32) (x6 : Vec F S128x128 .f32) (x7 : Vec F S1x128 .f32) :
    { LS : List (View.Piece (Elt F) S64x128 .f32) //
      ∀ (xo : Vec F S1x64x128 .f32) (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xo ∗ (∃ d, owns (c : Thread nD τ) a9 fullShare d)
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare xo ∗ (∃ f, a9.view.loc (c : Thread nD τ) ↦[a9.view.set]{fullShare} a9.view.writes (Elt F) f LS)) -∗ K ⟨⟩))
          ⊢ wp frame (wpE (defs₀ (F := F)) Variants.none c none) E (cc0__relational_kernel i a3 h3 a4 h4 a5 h5 a6 h6 a7 h7 a8 h8 a9 h9) K } := by
  refine ⟨?_, fun xo E K => ?run⟩
  case run =>
    simp only [cc0__relational_kernel_eq_skeleton]; unfold cc0__relational_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h3.eq_unread hf3; obtain rfl := h4.eq_unread hf4; obtain rfl := h5.eq_unread hf5
    obtain rfl := h6.eq_unread hf6; obtain rfl := h7.eq_unread hf7; obtain rfl := h8.eq_unread hf8
    sl_exec (disch := first | exact hr | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; iexact H9

end Cert.KernelIdeal.Rel

end
-- ==== Proof.IdealRunEmit.lean ====
/-
  The body at a point with j = 1, run once on arbitrary whole staging memrefs.

  There the scratch arrives holding the sums of the point before; the point's 128 edge terms per (row, feature) are added
  to it, and the scratch is then copied into the result's buffer, all of which is stored. The run records what was stored
  into the scratch and into the result's buffer as lists of stored pieces.
-/
import proofs.«131842_j10565619548782_1_alg».proof.Proof.IdealLaunchBase

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where nothing is reset and the result is emitted: from the five input buffers at their contents, the
    result's buffer at anything and the scratch at the contents `xs` the point before left, the body runs and leaves the
    inputs as they were, the result's buffer with the pieces `LO` stored and the scratch with the pieces `LS` stored. -/
noncomputable def runEmit (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : ¬resetsAt i) (he : emitsAt i) (x3 : Vec F S1x64x128 .f32) (x4 : Vec F S1x128x128 .f32) (x5 : Vec F S128x128 .f32) (x6 : Vec F S128x128 .f32) (x7 : Vec F S1x128 .f32) (xs : Vec F S64x128 .f32) :
    Σ' (LO : List (View.Piece (Elt F) S1x64x128 .f32)), { LS : List (View.Piece (Elt F) S64x128 .f32) //
      ∀ (E : Set ℕ) (K : PUnit → sProp 𝕄),
        iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare xs
            ∗ (iprop(owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f LO) ∗ (∃ f, a9.view.loc (c : Thread nD τ) ↦[a9.view.set]{fullShare} a9.view.writes (Elt F) f LS)) -∗ K ⟨⟩))
          ⊢ wp frame (wpE (defs₀ (F := F)) Variants.none c none) E (cc0__relational_kernel i a3 h3 a4 h4 a5 h5 a6 h6 a7 h7 a8 h8 a9 h9) K } := by
  refine ⟨?_, ?_, fun E K => ?run⟩
  case run =>
    simp only [cc0__relational_kernel_eq_skeleton]; unfold cc0__relational_kernel_skel
    simp only [k0_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := h3.eq_unread hf3; obtain rfl := h4.eq_unread hf4; obtain rfl := h5.eq_unread hf5
    obtain rfl := h6.eq_unread hf6; obtain rfl := h7.eq_unread hf7; obtain rfl := h9.eq_unread hf9
    sl_exec (disch := first | exact hr | exact he)
    sl_step
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    iexists _; iexact H9

end Cert.KernelIdeal.Rel

end
-- ==== Proof.IdealLaunchData.lean ====
/-
  The launch of the pairwise-sum kernel, second part: what the scratch and the result's buffer hold after every point,
  and that the body, run at any point from what the point before left, leaves exactly that.

  Points come in pairs (t even, t + 1): the even point zeroes the scratch and adds its 128 edge terms, the odd point adds
  its own 128 and copies the scratch out. `stateAt` follows the pair by recursion on the point number; the proof data of
  the launch name each input window's block, the result buffer's contents after each point and the scratch between
  points. The input array x is read by two windows at once: each holds one half of the right to read it.
-/
import proofs.«131842_j10565619548782_1_alg».proof.Proof.IdealRunReset
import proofs.«131842_j10565619548782_1_alg».proof.Proof.IdealRunEmit

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a point of the grid -/

/-- The reset run at an even point `t`, on the point's staging memrefs and the blocks its windows show. -/
abbrev resetAt (c : Dev nD) (t : Fin cfg0.N) (h : t.val % 2 = 0) :=
  runReset (F := F) c (grid0.coords t) (mX t) (hX t) (mY t) (hY t) (mW1 t) (hW1 t) (mW2 t) (hW2 t) (mB t) (hB t) (mO t) (hO t) mAcc (Memref.isWhole_whole _)
    ((resetsAt_iff t).mpr h) (fun e => by have := (emitsAt_iff t).mp e; omega) (blockAt m c 0 t) (blockAt m c 1 t) (blockAt m c 2 t) (blockAt m c 3 t) (blockAt m c 4 t)

/-- The emitting run at an odd point `t`, the scratch arriving at `xs`. -/
abbrev emitAt (c : Dev nD) (t : Fin cfg0.N) (h : t.val % 2 = 1) (xs : Vec F S64x128 .f32) :=
  runEmit (F := F) c (grid0.coords t) (mX t) (hX t) (mY t) (hY t) (mW1 t) (hW1 t) (mW2 t) (hW2 t) (mB t) (hB t) (mO t) (hO t) mAcc (Memref.isWhole_whole _)
    (fun e => by have := (resetsAt_iff t).mp e; omega) ((emitsAt_iff t).mpr h) (blockAt m c 0 t) (blockAt m c 1 t) (blockAt m c 2 t) (blockAt m c 3 t) (blockAt m c 4 t) xs

/-- The reset run's stores into the scratch reach every element of it. -/
theorem resetCovers (c : Dev nD) (t : Fin cfg0.N) (h : t.val % 2 = 0) (y : S64x128.Idx) :
    ∃ pc ∈ (resetAt m c t h).1, y ∈ pc.1.set :=
  View.cover_of_tiledL (resetAt m c t h).1 S64x128.size (by sl_kernel_rfl) y

/-- What the scratch holds after an even point. -/
def accResetAt (c : Dev nD) (t : Fin cfg0.N) (h : t.val % 2 = 0) : Vec F S64x128 .f32 :=
  vAcc.read (Elt F) (vAcc.writes (Elt F) vAcc.junk (resetAt m c t h).1)

/-- The emitting run's stores into the scratch reach every element of it, -/
theorem emitCoversAcc (c : Dev nD) (t : Fin cfg0.N) (h : t.val % 2 = 1) (xs : Vec F S64x128 .f32) (y : S64x128.Idx) :
    ∃ pc ∈ (emitAt m c t h xs).2.1, y ∈ pc.1.set :=
  View.cover_of_tiledL (emitAt m c t h xs).2.1 S64x128.size (by sl_kernel_rfl) y

/-- and its stores into the result's buffer every element of that. -/
theorem emitCoversOut (c : Dev nD) (t : Fin cfg0.N) (h : t.val % 2 = 1) (xs : Vec F S64x128 .f32) (y : S1x64x128.Idx) :
    ∃ pc ∈ (emitAt m c t h xs).1, y ∈ pc.1.set :=
  View.cover_of_tiledL (emitAt m c t h xs).1 S1x64x128.size (by sl_kernel_rfl) y

/-- What the scratch holds after an odd point that found it at `xs`. -/
def accEmitAt (c : Dev nD) (t : Fin cfg0.N) (h : t.val % 2 = 1) (xs : Vec F S64x128 .f32) : Vec F S64x128 .f32 :=
  vAcc.read (Elt F) (vAcc.writes (Elt F) vAcc.junk (emitAt m c t h xs).2.1)

/-- What the result's buffer holds after an odd point that found the scratch at `xs`. -/
def outEmitAt (c : Dev nD) (t : Fin cfg0.N) (h : t.val % 2 = 1) (xs : Vec F S64x128 .f32) : Vec F S1x64x128 .f32 :=
  vO.read (Elt F) (vO.writes (Elt F) vO.junk (emitAt m c t h xs).1)

/-! ## The state after each point -/

/-- After point `n`: the result buffer's contents (named only after an odd point; after an even one the buffer is not
    consulted and the component is a placeholder) and the scratch's. An odd point starts from the scratch its even
    predecessor left. -/
def stateAt (c : Dev nD) : (n : ℕ) → n < cfg0.N → Vec F S1x64x128 .f32 × Vec F S64x128 .f32
  | 0, hn => (vO.read (Elt F) vO.junk, accResetAt m c ⟨0, hn⟩ (Nat.zero_mod 2))
  | n + 1, hn =>
    if h : (n + 1) % 2 = 0 then (vO.read (Elt F) vO.junk, accResetAt m c ⟨n + 1, hn⟩ h)
    else (outEmitAt m c ⟨n + 1, hn⟩ (Nat.mod_two_ne_zero.mp h) (stateAt c n (Nat.lt_of_succ_lt hn)).2,
          accEmitAt m c ⟨n + 1, hn⟩ (Nat.mod_two_ne_zero.mp h) (stateAt c n (Nat.lt_of_succ_lt hn)).2)

theorem stateAt_even (c : Dev nD) (t : Fin cfg0.N) (h : t.val % 2 = 0) :
    stateAt m c t.val t.isLt = (vO.read (Elt F) vO.junk, accResetAt m c t h) := by
  obtain ⟨n, hn⟩ := t
  cases n with
  | zero => exact rfl
  | succ n => exact (dif_pos h).trans rfl

theorem stateAt_odd (c : Dev nD) (t : Fin cfg0.N) (h : t.val % 2 = 1) :
    stateAt m c t.val t.isLt
      = (outEmitAt m c t h (stateAt m c (t.val - 1) (Nat.lt_of_le_of_lt (Nat.sub_le _ _) t.isLt)).2,
         accEmitAt m c t h (stateAt m c (t.val - 1) (Nat.lt_of_le_of_lt (Nat.sub_le _ _) t.isLt)).2) := by
  obtain ⟨n, hn⟩ := t
  cases n with
  | zero => exfalso; dsimp only at h; omega
  | succ n => exact (dif_neg (by dsimp only at h; omega)).trans rfl

/-- What the region keeps before point `n`: before the first point the scratch at anything; afterwards the scratch at what
    the point before left in it. -/
def keptAt (c : Dev nD) : (n : ℕ) → n ≤ cfg0.N → sProp 𝕄
  | 0, _ => Pipeline.scopedRest spec0 c
  | n + 1, hn => owns (c : Thread nD τ) mAcc fullShare ((stateAt m c n hn).2)

theorem keptAt_zero (c : Dev nD) (n : ℕ) (h : n ≤ cfg0.N) (hz : n = 0) : keptAt m c n h = Pipeline.scopedRest spec0 c := by
  subst hz; rfl

theorem keptAt_succ (c : Dev nD) (n : ℕ) (hn : n < cfg0.N) :
    keptAt m c (n + 1) hn = owns (c : Thread nD τ) mAcc fullShare ((stateAt m c n hn).2) := rfl

theorem keptAt_pos (c : Dev nD) (n : ℕ) (h : n ≤ cfg0.N) (hz : n ≠ 0) :
    keptAt m c n h = owns (c : Thread nD τ) mAcc fullShare ((stateAt m c (n - 1) (by omega)).2) := by
  cases n with
  | zero => exact absurd rfl hz
  | succ n => rfl

/-! ## The proof data of the launch -/

/-- On core `c`: the arrays as the launch finds them; after the body at point `t` each input's buffer at its block and the
    result's at `stateAt`'s first component; between points `keptAt`; nothing owed. The array x is held in two halves, one
    by each of the two windows that read it; every other array whole by its one window. -/
def dats (_ : Fin 1) (c : Dev nD) : Dat τ (Elt F) Unit ℕ (UR sig nD τ) ℕ cfg0 c where
  A w := entryVal m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => (stateAt m c t.val t.isLt).1
  Φ t := keptAt m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = entryVal m c (Pipeline.arrRef spec0 w) := by
  dsimp only [dats]

theorem kept_castSucc (c : Dev nD) (t : Fin cfg0.N) :
    (dats m 0 c).Φ t.castSucc = keptAt m c t.val (Nat.le_of_lt t.isLt) := by
  dsimp only [dats]; simp only [Fin.coe_castSucc]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) : (dats m 0 c).after 5 t = (stateAt m c t.val t.isLt).1 := by dsimp only [dats]

theorem held0 (c : Dev nD) (t : Fin cfg0.N) (d) : (dats m 0 c).before 0 t d = blockAt m c 0 t :=
  held0_of m (dats m 0 c) (A_eq m c 0) (after0 m c) t d
theorem held1 (c : Dev nD) (t : Fin cfg0.N) (d) : (dats m 0 c).before 1 t d = blockAt m c 1 t :=
  held1_of m (dats m 0 c) (A_eq m c 1) (after1 m c) t d
theorem held2 (c : Dev nD) (t : Fin cfg0.N) (d) : (dats m 0 c).before 2 t d = blockAt m c 2 t :=
  held2_of m (dats m 0 c) (A_eq m c 2) (after2 m c) t d
theorem held3 (c : Dev nD) (t : Fin cfg0.N) (d) : (dats m 0 c).before 3 t d = blockAt m c 3 t :=
  held3_of m (dats m 0 c) (A_eq m c 3) (after3 m c) t d
theorem held4 (c : Dev nD) (t : Fin cfg0.N) (d) : (dats m 0 c).before 4 t d = blockAt m c 4 t :=
  held4_of m (dats m 0 c) (A_eq m c 4) (after4 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (mX t) fullShare ((dats m 0 c).before 0 t d))
    ∗ (∃ d, owns (c : Thread nD τ) (mY t) fullShare ((dats m 0 c).before 1 t d))
    ∗ (∃ d, owns (c : Thread nD τ) (mW1 t) fullShare ((dats m 0 c).before 2 t d))
    ∗ (∃ d, owns (c : Thread nD τ) (mW2 t) fullShare ((dats m 0 c).before 3 t d))
    ∗ (∃ d, owns (c : Thread nD τ) (mB t) fullShare ((dats m 0 c).before 4 t d))
    ∗ (∃ d, owns (c : Thread nD τ) (mO t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. The inputs' buffers hold their blocks; the parity of the point number says which run applies;
    the scratch arrives at what the point before left (at anything before the first point) and leaves at this point's
    contents, by the runs' covers; the result's buffer is handed back untouched at an even point and wholly stored at
    an odd one; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2, held3, held4]
  rw [show (dats m 0 c).owesAt () t.succ = (dats m 0 c).owesAt () t.castSucc from rfl]
  rw [show (dats m 0 c).Φ t.succ = keptAt m c (t.val + 1) t.isLt from rfl, keptAt_succ]
  rw [show (dats m 0 c).leavesExact 0 t = owns (c : Thread nD τ) (mX t) fullShare ((dats m 0 c).after 0 t) from by
    unfold Dat.leavesExact; rw [live0 t], after0]
  rw [show (dats m 0 c).leavesExact 1 t = owns (c : Thread nD τ) (mY t) fullShare ((dats m 0 c).after 1 t) from by
    unfold Dat.leavesExact; rw [live1 t], after1]
  rw [show (dats m 0 c).leavesExact 2 t = owns (c : Thread nD τ) (mW1 t) fullShare ((dats m 0 c).after 2 t) from by
    unfold Dat.leavesExact; rw [live2 t], after2]
  rw [show (dats m 0 c).leavesExact 3 t = owns (c : Thread nD τ) (mW2 t) fullShare ((dats m 0 c).after 3 t) from by
    unfold Dat.leavesExact; rw [live3 t], after3]
  rw [show (dats m 0 c).leavesExact 4 t = owns (c : Thread nD τ) (mB t) fullShare ((dats m 0 c).after 4 t) from by
    unfold Dat.leavesExact; rw [live4 t], after4]
  have hN : t.val < 64 := lt_of_lt_of_eq t.isLt (show cfg0.N = 64 from N_0)
  by_cases h0 : t.val % 2 = 0
  · rw [Dat.leavesExact_idle (dats m 0 c) 5 t (idle5_even t h0) (noFlush5_even t h0)]
    rw [stateAt_even m c t h0]
    unfold accResetAt; (try dsimp only)
    by_cases hz : t.val = 0
    · rw [kept_castSucc m c t, keptAt_zero m c _ _ hz, scratchKept_eq]
      iintro ⟨HS, Ho, ⟨%d0, H0⟩, ⟨%d1, H1⟩, ⟨%d2, H2⟩, ⟨%d3, H3⟩, ⟨%d4, H4⟩, ⟨%d5, H5⟩⟩
      iapply ((resetAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS]
      · unfold owns; iexists _; isplitr
        swap; · iexact HS
        ipureintro; exact View.read_writes_of_cover _ _ _ _ _ (resetCovers m c t h0)
      isplitl [Ho]; · iexact Ho
      isplitl [H0]; · iexact H0
      isplitl [H1]; · iexact H1
      isplitl [H2]; · iexact H2
      isplitl [H3]; · iexact H3
      isplitl [H4]; · iexact H4
      iexists _; iexact H5
    · rw [kept_castSucc m c t, keptAt_pos m c _ _ hz]
      iintro ⟨HS, Ho, ⟨%d0, H0⟩, ⟨%d1, H1⟩, ⟨%d2, H2⟩, ⟨%d3, H3⟩, ⟨%d4, H4⟩, ⟨%d5, H5⟩⟩
      iapply ((resetAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS]
      · unfold owns; iexists _; isplitr
        swap; · iexact HS
        ipureintro; exact View.read_writes_of_cover _ _ _ _ _ (resetCovers m c t h0)
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := Nat.mod_two_ne_zero.mp h0
    have hz : t.val ≠ 0 := by omega
    rw [show (dats m 0 c).leavesExact 5 t = owns (c : Thread nD τ) (mO t) fullShare ((dats m 0 c).after 5 t) from by
      unfold Dat.leavesExact; rw [live5_odd t h1], after5]
    rw [stateAt_odd m c t h1]
    unfold outEmitAt accEmitAt; (try dsimp only)
    rw [kept_castSucc m c t, keptAt_pos m c _ _ hz]
    iintro ⟨HS, Ho, ⟨%d0, H0⟩, ⟨%d1, H1⟩, ⟨%d2, H2⟩, ⟨%d3, H3⟩, ⟨%d4, H4⟩, ⟨%d5, H5⟩⟩
    iapply ((emitAt m c t h1 _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro; exact View.read_writes_of_cover _ _ _ _ _ (emitCoversAcc m c t h1 _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (emitCoversOut m c t h1 _)

/-- The body obligation of the launch rule, at every point. -/
theorem body_obligation (c : Dev nD) : BodyObligation (dats (F := F) m 0 c) (defs₀ (F := F)) Variants.none () Set.univ := fun t => by
  rw [bigSep_W0, bigSep_W0]
  exact sound_body m c t

/-- What the launch hands the region is what it keeps before the first point. -/
theorem keeps_in (c : Dev nD) : Pipeline.scopedRest spec0 c ⊢ (dats m 0 c).Φ 0 := by
  rw [show (dats m 0 c).Φ 0 = keptAt m c 0 (Nat.zero_le _) from rfl, keptAt_zero m c 0 _ rfl]
  try exact Idealize.SL.BI.Entails.refl _

/-- After the last point the scratch's contents are forgotten again. -/
theorem keeps_out (c : Dev nD) : (dats m 0 c).Φ (Fin.last cfg0.N) ⊢ Pipeline.scopedRest spec0 c := by
  have hN : cfg0.N = 64 := N_0
  rw [show (dats m 0 c).Φ (Fin.last cfg0.N) = keptAt m c (Fin.last cfg0.N).val (Nat.le_of_lt_succ (Fin.last cfg0.N).isLt) from rfl,
    keptAt_pos m c _ _ (by rw [Fin.val_last]; omega), scratchKept_eq]
  iintro HS
  iexists _; iexact HS

end Cert.KernelIdeal.Rel

end
-- ==== Proof.IdealPieces.lean ====
/-
  What the stored pieces of the two runs amount to, as values.

  Every store of the body writes a whole buffer through a rectangle at zero offsets, and every load reads a whole buffer,
  so the pieces a run recorded read back as the body's own arithmetic applied to the buffers' contents:
    after a point with j = 0 the scratch holds  work(blocks, zeros),
    after a point with j = 1 it holds           work(blocks, what the point before left),
    and the result's buffer holds that same sum, laid out with a leading unit axis;
  where `work` is the point's arithmetic (the generated payload `k0_pay4`: the scratch it is handed plus the point's 128
  edge terms per row and feature), `k0_pay1` and `k0_pay2` are the re-layings before the two stores, `k0_pay3` the zeros.
-/
import proofs.«131842_j10565619548782_1_alg».proof.Proof.IdealLaunchData
import Idealize.ShloMosaic.Lib.Pipeline.Value

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- After a resetting run the scratch holds the point's work over the zeros: the second store covers the first, and the
    scratch it loads in between is the zeros just stored. -/
theorem reset_value (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : resetsAt i) (he : ¬emitsAt i) (x3 : Vec F S1x64x128 .f32) (x4 : Vec F S1x128x128 .f32) (x5 : Vec F S128x128 .f32) (x6 : Vec F S128x128 .f32) (x7 : Vec F S1x128 .f32)
    (hcov : ∀ y : S64x128.Idx, ∃ pc ∈ (runReset (F := F) c i a3 h3 a4 h4 a5 h5 a6 h6 a7 h7 a8 h8 a9 h9 hr he x3 x4 x5 x6 x7).1, y ∈ pc.1.set) :
    vAcc.read (Elt F) (vAcc.writes (Elt F) vAcc.junk (runReset (F := F) c i a3 h3 a4 h4 a5 h5 a6 h6 a7 h7 a8 h8 a9 h9 hr he x3 x4 x5 x6 x7).1)
      = k0_pay1 (k0_pay4 x3 x4 x5 x6 x7 (k0_pay3 (F := F))) := by
  rw [View.read_writes_eq_canon _ _ _ hcov]
  unfold runReset
  dsimp only
  sl_unfold_words
  rw [View.canon_cons_unit_zero (S := S64x128) hz2, View.readCov_unit_zero (S := S64x128) _ hz2]
  simp only [View.readAt_eq_ld, h3.read_unread, h4.read_unread, h5.read_unread, h6.read_unread, h7.read_unread,
    View.ld_unit_zero (S := S1x64x128) hz3, View.ld_unit_zero (S := S1x128x128) hz3, View.ld_unit_zero (S := S128x128) hz2,
    View.ld_unit_zero (S := S1x128) hz2]

/-- After an emitting run the scratch holds the point's work over what it arrived with, -/
theorem emit_acc_value (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : ¬resetsAt i) (he : emitsAt i) (x3 : Vec F S1x64x128 .f32) (x4 : Vec F S1x128x128 .f32) (x5 : Vec F S128x128 .f32) (x6 : Vec F S128x128 .f32) (x7 : Vec F S1x128 .f32) (xs : Vec F S64x128 .f32)
    (hcov : ∀ y : S64x128.Idx, ∃ pc ∈ (runEmit (F := F) c i a3 h3 a4 h4 a5 h5 a6 h6 a7 h7 a8 h8 a9 h9 hr he x3 x4 x5 x6 x7 xs).2.1, y ∈ pc.1.set) :
    vAcc.read (Elt F) (vAcc.writes (Elt F) vAcc.junk (runEmit (F := F) c i a3 h3 a4 h4 a5 h5 a6 h6 a7 h7 a8 h8 a9 h9 hr he x3 x4 x5 x6 x7 xs).2.1)
      = k0_pay1 (k0_pay4 x3 x4 x5 x6 x7 xs) := by
  rw [View.read_writes_eq_canon _ _ _ hcov]
  unfold runEmit
  dsimp only
  sl_unfold_words
  rw [View.canon_unit_zero hz2]
  simp only [View.readAt_eq_ld, h3.read_unread, h4.read_unread, h5.read_unread, h6.read_unread, h7.read_unread,
    View.ld_unit_zero (S := S1x64x128) hz3, View.ld_unit_zero (S := S1x128x128) hz3, View.ld_unit_zero (S := S128x128) hz2,
    View.ld_unit_zero (S := S1x128) hz2, h9.read_unread, View.ld_unit_zero (S := S64x128) hz2]

/-- and the result's buffer holds that sum, read back from the scratch and re-laid. -/
theorem emit_out_value (c : Dev nD) (i : grid0.Coords) (a3 : Memref sig .tc .vmem S1x64x128 .f32) (h3 : a3.IsWhole) (a4 : Memref sig .tc .vmem S1x128x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S1x64x128 .f32) (h8 : a8.IsWhole) (a9 : Memref sig .tc .vmem S64x128 .f32) (h9 : a9.IsWhole)
    (hr : ¬resetsAt i) (he : emitsAt i) (x3 : Vec F S1x64x128 .f32) (x4 : Vec F S1x128x128 .f32) (x5 : Vec F S128x128 .f32) (x6 : Vec F S128x128 .f32) (x7 : Vec F S1x128 .f32) (xs : Vec F S64x128 .f32)
    (hcov : ∀ y : S1x64x128.Idx, ∃ pc ∈ (runEmit (F := F) c i a3 h3 a4 h4 a5 h5 a6 h6 a7 h7 a8 h8 a9 h9 hr he x3 x4 x5 x6 x7 xs).1, y ∈ pc.1.set) :
    vO.read (Elt F) (vO.writes (Elt F) vO.junk (runEmit (F := F) c i a3 h3 a4 h4 a5 h5 a6 h6 a7 h7 a8 h8 a9 h9 hr he x3 x4 x5 x6 x7 xs).1)
      = k0_pay2 (k0_pay1 (k0_pay4 x3 x4 x5 x6 x7 xs)) := by
  rw [View.read_writes_eq_canon _ _ _ hcov]
  unfold runEmit
  dsimp only
  sl_unfold_words
  rw [View.canon_unit_zero hz3, View.readCov_unit_zero (S := S64x128) _ hz2]
  simp only [View.readAt_eq_ld, h3.read_unread, h4.read_unread, h5.read_unread, h6.read_unread, h7.read_unread,
    View.ld_unit_zero (S := S1x64x128) hz3, View.ld_unit_zero (S := S1x128x128) hz3, View.ld_unit_zero (S := S128x128) hz2,
    View.ld_unit_zero (S := S1x128) hz2, h9.read_unread, View.ld_unit_zero (S := S64x128) hz2]

/-! ## At the points of the grid -/

theorem accResetAt_eq (c : Dev nD) (t : Fin cfg0.N) (h : t.val % 2 = 0) :
    accResetAt m c t h = k0_pay1 (k0_pay4 (blockAt m c 0 t) (blockAt m c 1 t) (blockAt m c 2 t) (blockAt m c 3 t) (blockAt m c 4 t) (k0_pay3 (F := F))) :=
  reset_value c _ _ _ _ _ _ _ _ _ _ _ _ _ _ _ _ _ _ _ _ _ _ (resetCovers m c t h)

theorem accEmitAt_eq (c : Dev nD) (t : Fin cfg0.N) (h : t.val % 2 = 1) (xs : Vec F S64x128 .f32) :
    accEmitAt m c t h xs = k0_pay1 (k0_pay4 (blockAt m c 0 t) (blockAt m c 1 t) (blockAt m c 2 t) (blockAt m c 3 t) (blockAt m c 4 t) xs) :=
  emit_acc_value c _ _ _ _ _ _ _ _ _ _ _ _ _ _ _ _ _ _ _ _ _ _ _ (emitCoversAcc m c t h xs)

theorem outEmitAt_eq (c : Dev nD) (t : Fin cfg0.N) (h : t.val % 2 = 1) (xs : Vec F S64x128 .f32) :
    outEmitAt m c t h xs = k0_pay2 (k0_pay1 (k0_pay4 (blockAt m c 0 t) (blockAt m c 1 t) (blockAt m c 2 t) (blockAt m c 3 t) (blockAt m c 4 t) xs)) :=
  emit_out_value c _ _ _ _ _ _ _ _ _ _ _ _ _ _ _ _ _ _ _ _ _ _ _ (emitCoversOut m c t h xs)

end Cert.KernelIdeal.Rel

end
-- ==== Proof.IdealLaunchRun.lean ====
/-
  The launch of the pairwise-sum kernel, last part: the whole program runs to its end, and where its arrays stand then.

  The array x is handed to the kernel through two windows. When the launch begins its buffer is held whole; the right to
  read it is cut in two halves, one for each window, and the launch rule for windows that share an array runs the grid
  from there. At the end every window's array stands at what the write-backs made of it (the inputs: unchanged), and the
  arrays no window stages (W and the bias) stand as the launch found them.
-/
import proofs.«131842_j10565619548782_1_alg».proof.Proof.IdealLaunchData

set_option maxRecDepth 16384

noncomputable section

namespace Cert.KernelIdeal.Rel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One window's array, held through its whole view at the window's share, is its buffer held at that share, at the entry
    contents. -/
theorem arrayHeld_eq (c : Dev nD) (w : Fin cfg0.W) (q : PosShare TreeShare) (hq : (dats m 0 c).share w = q) :
    (((cfg0.win w).arr.view.loc (c : Thread nD τ)) ↦[(cfg0.win w).arr.view.set]{(dats m 0 c).share w} (dats m 0 c).arrAt w 0 : sProp 𝕄)
      = (((c : Thread nD τ).loc (Pipeline.arrRef spec0 w)) ↦{q} entryVal m c (Pipeline.arrRef spec0 w)) := by
  rw [(arr_whole0 w).set_eq_univ, hq, show (dats m 0 c).arrAt w 0 = entryVal m c (Pipeline.arrRef spec0 w) from A_eq m c w]

theorem share_0 (c : Dev nD) : (dats m 0 c).share 0 = fullShare.left := by
  unfold Dat.share; rw [if_neg (show ¬((cfg0.win 0).isOut = true) from by decide)]; dsimp only [dats]
theorem share_1 (c : Dev nD) : (dats m 0 c).share 1 = fullShare.right := by
  unfold Dat.share; rw [if_neg (show ¬((cfg0.win 1).isOut = true) from by decide)]; dsimp only [dats]
theorem share_2 (c : Dev nD) : (dats m 0 c).share 2 = fullShare := by
  unfold Dat.share; rw [if_neg (show ¬((cfg0.win 2).isOut = true) from by decide)]; dsimp only [dats]
theorem share_3 (c : Dev nD) : (dats m 0 c).share 3 = fullShare := by
  unfold Dat.share; rw [if_neg (show ¬((cfg0.win 3).isOut = true) from by decide)]; dsimp only [dats]
theorem share_4 (c : Dev nD) : (dats m 0 c).share 4 = fullShare := by
  unfold Dat.share; rw [if_neg (show ¬((cfg0.win 4).isOut = true) from by decide)]; dsimp only [dats]
theorem share_5 (c : Dev nD) : (dats m 0 c).share 5 = fullShare := by
  unfold Dat.share; rw [if_pos (show (cfg0.win 5).isOut = true from by decide)]

/-- The six windows' arrays at their shares, written out: x twice (a half each), then the four arrays with one window. -/
theorem arrays_eq6 (c : Dev nD) :
    ((dats m 0 c).arrays ((dats m 0 c).arrAt · 0) : sProp 𝕄)
      = iprop((((c : Thread nD τ).loc main_arg0) ↦{fullShare.left} entryVal m c main_arg0)
          ∗ (((c : Thread nD τ).loc main_arg0) ↦{fullShare.right} entryVal m c main_arg0)
          ∗ (((c : Thread nD τ).loc main_v0) ↦{fullShare} entryVal m c main_v0)
          ∗ (((c : Thread nD τ).loc main_v1) ↦{fullShare} entryVal m c main_v1)
          ∗ (((c : Thread nD τ).loc main_v2) ↦{fullShare} entryVal m c main_v2)
          ∗ (((c : Thread nD τ).loc main_v3) ↦{fullShare} entryVal m c main_v3)) := by
  unfold Dat.arrays
  rw [bigSep_W0]
  rw [arrayHeld_eq m c 0 _ (share_0 m c), arrayHeld_eq m c 1 _ (share_1 m c), arrayHeld_eq m c 2 _ (share_2 m c),
    arrayHeld_eq m c 3 _ (share_3 m c), arrayHeld_eq m c 4 _ (share_4 m c), arrayHeld_eq m c 5 _ (share_5 m c)]

/-- The buffers behind the six windows' arrays are five: x (behind two windows), the two halves of W, the bias row, the result. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3)) := by
  unfold Pipeline.arrBufs
  exact bigSep_eq_bigSepL_of_eq [main_arg0, main_v0, main_v1, main_v2, main_v3] (by decide) (by decide) _

/-- The five buffers behind the six windows' arrays, held whole at the entry contents, are the six windows' arrays at
    their shares: the buffer of x is cut into its left and right halves for windows 0 and 1. -/
theorem arrays_in (c : Dev nD) :
    (Pipeline.arrBufs spec0 c (entryVal m c) : sProp 𝕄) ⊢ (dats m 0 c).arrays ((dats m 0 c).arrAt · 0) := by
  rw [arrBufs_eq, arrays_eq6]
  iintro ⟨Hx, Hv0, Hv1, Hv2, Hv3⟩
  ihave Hx2 := (pointsTo_share (PosShare.mem_left_op_right fullShare)).1 $$ Hx
  icases Hx2 with ⟨Hl, Hr⟩
  isplitl [Hl]; · iexact Hl
  isplitl [Hr]; · iexact Hr
  isplitl [Hv0]; · iexact Hv0
  isplitl [Hv1]; · iexact Hv1
  isplitl [Hv2]; · iexact Hv2
  iexact Hv3

set_option backward.isDefEq.respectTransparency.types false in
/-- From any memory with zero counters every weakly fair execution of the program terminates without a fault, with every
    window's array at what the proof data compute for it after the last point and every other unscoped buffer as the
    launch found it. -/
theorem run_main : θ_run defs (onTc (τ := τ) (main (F := F))) (s₀ m ρ) (Pipeline.FramePost cfgs (dats m) 0 (entryVal m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := entryVal m) (hmain := toLaunch m Variants.none)
    (hsplit := arrays_in m)
    (X := fun _ => iprop(emp)) (Y := fun _ => iprop(emp))
    (Z := fun c => Pipeline.unscopedRest (Ix := Unit) (Name := ℕ) (U := UR sig nD τ) (Lvl := ℕ) spec0 c (entryVal m c))
    (hX := fun c => by
      iintro HU
      isplitr; · iempintro
      iexact HU)
    (hin := fun c => (show _ ⊢ (Pipeline.scopedRest spec0 c : sProp 𝕄) from by iintro ⟨-, HR⟩; iexact HR).trans (keeps_in m c))
    (hout := fun c => (keeps_out m c).trans (by
      iintro HR
      isplitr; · iempintro
      iexact HR))
    (QY := fun c s => ∀ b ∈ Pipeline.restRefs sig spec0, s.mem ((c.tc : Thread nD τ).loc b) = entryVal m c b)
    (hY := fun c s' => by
      iintro ⟨-, HU, HSI⟩
      unfold Pipeline.unscopedRest
      imodintro
      iapply (pointsTo_read_all (Pipeline.restRefs sig spec0) (fun b => (c.tc : Thread nD τ).loc b) (entryVal m c) s')
      isplitl [HU] <;> iassumption)
    (hQ := fun s h c => ⟨(h c).1, (h c).2⟩)

/-- info: 'Cert.KernelIdeal.Rel.run_main' depends on axioms: [propext, Classical.choice, Quot.sound] -/
#guard_msgs in #print axioms run_main

/-- The program runs, faults nowhere, and leaves its three argument arrays as it found them: x is an input of two windows,
    W and the bias are staged by no window. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.KernelIdeal.Rel

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.IdealPayload.lean ====
/-
  The kernel body's arithmetic, read index by index over the extended reals.

  At one grid point the body holds a block of 64 rows of x (the first ends of the edges), a block of 128 rows of x (the
  second ends), the two halves W₁ and W₂ of the weight matrix, the bias row, and a running total. It forms
      A[r, f] = Σ_k x₁[r, k] · W₁[k, f]          (64 × 128)
      C[q, f] = Σ_k x₂[q, k] · W₂[k, f]          (128 × 128)
  lays A along a new middle axis and C along a new leading axis, adds them and the bias to a 64 × 128 × 128 array
      E[r, q, f] = A[r, f] + C[q, f] + bias[f],
  takes max(E, 0), sums over the middle axis q, and adds the result to the running total. So at (r, f) the body's value is
      total[r, f] + Σ_q max (A[r, f] + C[q, f] + bias[f]) 0.
  The rounding of the matrix operands to a narrower format is the identity on the extended reals, and the accumulator the
  products are added into is the zero array, so A and C are the plain sums above.

  The file first reads the layout operations the body uses at an index given by coordinates (a unit axis put in the
  middle or twice in front by a shape cast; an array repeated along a new or a unit axis by a broadcast), then each of the
  three summands of E, then the two matrix products, and last the whole body.
-/
import proofs.«131842_j10565619548782_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«131842_j10565619548782_1_alg».proof.Proof.LibDotRead

noncomputable section

open scoped BigOperators

namespace Cert.KernelIdeal.Pay

open Cert.KernelIdeal Cert.KernelIdeal.Gen Idealize.ShloMosaic Idealize.ShloMosaic.ValueIdx

/-! ## Layout operations at an index given by coordinates -/

section Layout
variable {α : Type}

/-- An `[a, b]` array cast to `[a, 1, b]` reads, at `(i, u, j)`, the operand at `(i, j)`: the unit axis in the middle
does not move the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1, c]` array broadcast to `[a, b, c]` reads, at `(p, q, r)`, the operand at `(p, 0, r)`: the same for every
`q`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`: the same for every
`p`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`: one row over every
`p` and `q`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

variable [Cert.KernelIdeal.Facts]

/-! ## The three summands of the edge term at (r, q, f) -/

/-- The first-end projection, laid along a new middle axis and repeated over it, is the projection at (r, f). -/
theorem firstEnd_apply (A : FVec Ideal S64x128 .f32) (h : S64x128.ShapeCasts S64x1x128)
    (hb : S64x1x128.Broadcasts S64x128x128) (r : Fin 64) (q f : Fin 128) :
    broadcastTo S64x128x128 (shapeCast S64x1x128 A h) hb (ix3 r q f) = A (ix2 r f) :=
  (broadcastTo_a1c_abc_apply _ hb r q f).trans (shapeCast_ab_a1b_apply A h r 0 f)

/-- The second-end projection, given a new leading axis and repeated over it, is the projection at (q, f). -/
theorem secondEnd_apply (C : FVec Ideal S128x128 .f32) (h : S128x128.ShapeCasts S1x128x128)
    (hb : S1x128x128.Broadcasts S64x128x128) (r : Fin 64) (q f : Fin 128) :
    broadcastTo S64x128x128 (shapeCast S1x128x128 C h) hb (ix3 r q f) = C (ix2 q f) :=
  (broadcastTo_1bc_abc_apply _ hb r q f).trans (shapeCast_ab_1ab_apply C h 0 q f)

/-- The bias row, flattened, given two leading unit axes and repeated over both, is the bias at f. -/
theorem bias_apply (b : FVec Ideal S1x128 .f32) (h₁ : S1x128.ShapeCasts S128) (h₂ : S128.ShapeCasts S1x1x128)
    (hb : S1x1x128.Broadcasts S64x128x128) (r : Fin 64) (q f : Fin 128) :
    broadcastTo S64x128x128 (shapeCast S1x1x128 (shapeCast S128 b h₁) h₂) hb (ix3 r q f) = b (ix2 (0 : Fin 1) f) :=
  ((broadcastTo_11c_abc_apply _ hb r q f).trans (shapeCast_a_11a_apply _ h₂ 0 0 f)).trans
    (shapeCast_1a_a_apply b h₁ f)

/-! ## The two matrix products -/

/-- The product of the 64 first-end rows with the top half of the weights, into the zero array: at (r, f) the sum over
the 128 input features. -/
theorem firstProd_apply (X : FVec Ideal S64x128 .bf16) (W : FVec Ideal S128x128 .bf16) (r : Fin 64) (f : Fin 128) :
    matmul dot_S64x128_S128x128_S64x128_1_0_0_1_n_n none X W (constant (F := Ideal) S64x128 .f32 0x00000000#32) (ix2 r f)
      = ∑ k : Fin 128, X (ix2 r k) * W (ix2 k f) :=
  (Ideal.matmul_constant_zero_apply _ none X W (ix2 r f)).trans
    (Cert.DotRead.sum_contr_plain Facts₀.dot_S64x128_S128x128_S64x128_1_0_0_1_n_n_wf X W r f)

/-- The product of the 128 second-end rows with the bottom half of the weights, into the zero array: at (q, f) the sum
over the 128 input features. -/
theorem secondProd_apply (X : FVec Ideal S128x128 .bf16) (W : FVec Ideal S128x128 .bf16) (q : Fin 128) (f : Fin 128) :
    matmul dot_S128x128_S128x128_S128x128_1_0_0_1_n_n none X W (constant (F := Ideal) S128x128 .f32 0x00000000#32) (ix2 q f)
      = ∑ k : Fin 128, X (ix2 q k) * W (ix2 k f) :=
  (Ideal.matmul_constant_zero_apply _ none X W (ix2 q f)).trans
    (Cert.DotRead.sum_contr_plain Facts₀.dot_S128x128_S128x128_S128x128_1_0_0_1_n_n_wf X W q f)

/-! ## The sum over the middle axis -/

/-- The index of the 64 × 128 × 128 array that lies over (r, f) with q on the summed axis is (r, q, f). -/
theorem lift_middle (h : S64x128x128.Reduces [1] S64x128) (r : Fin 64) (q f : Fin 128) :
    h.lift (ix2 r f) q = ix3 r q f := by
  funext c
  apply Fin.ext
  match c with
  | ⟨0, _⟩ => rfl
  | ⟨1, _⟩ => rfl
  | ⟨2, _⟩ => rfl

/-- The sum of a 64 × 128 × 128 array over its middle axis, at (r, f), is the sum over q of its entries at (r, q, f). -/
theorem sumMiddle_apply (E : FVec Ideal S64x128x128 .f32) (h : S64x128x128.Reduces [1] S64x128)
    (hφ : FKind.Formats FTy.f32) (hacc : (0x00000000#32 : BitVec 32) = FKind.add.neutral FTy.f32 hφ) (r : Fin 64) (f : Fin 128) :
    multiReduction (F := Ideal) .add [1] S64x128 E 0x00000000#32 h hφ hacc (ix2 r f) = ∑ q : Fin 128, E (ix3 r q f) :=
  (Ideal.multiReduction_add_single E 0x00000000#32 h hφ hacc (ix2 r f)).trans
    (Finset.sum_congr rfl fun q _ => congrArg E (lift_middle h r q f))

/-! ## The body's values -/

/-- The point's work at (r, f): the running total plus, over the 128 second ends q of the block, the rectified sum of the
first end's projection, the second end's projection and the bias. -/
theorem pay4_apply (v3 : Vec Ideal S1x64x128 .f32) (v6 : Vec Ideal S1x128x128 .f32) (v9 v12 : Vec Ideal S128x128 .f32)
    (v17 : Vec Ideal S1x128 .f32) (v29 : Vec Ideal S64x128 .f32) (r : Fin 64) (f : Fin 128) :
    k0_pay4 (F := Ideal) v3 v6 v9 v12 v17 v29 (ix2 r f)
      = v29 (ix2 r f) + ∑ q : Fin 128, max ((∑ k : Fin 128, v3 (ix3 0 r k) * v9 (ix2 k f))
          + (∑ k : Fin 128, v6 (ix3 0 q k) * v12 (ix2 k f)) + v17 (ix2 0 f)) 0 := by
  unfold k0_pay4
  rw [addf_apply]
  -- the sum over the middle axis, term by term
  refine congrArg (v29 (ix2 r f) + ·) ((sumMiddle_apply _ _ _ _ r f).trans (Finset.sum_congr rfl fun q _ => ?_))
  -- the edge term at (r, q, f): its three summands, and the two products under them
  rw [maximumf_apply, addf_apply, addf_apply, broadcast_apply, firstEnd_apply, secondEnd_apply, bias_apply,
    firstProd_apply, secondProd_apply]
  -- the operands of the products: rounding is the identity, the casts keep or drop a leading unit axis
  simp only [truncf_apply, shapeCast_self, shapeCast_1ab_ab_apply]
  exact congrArg (max _) Ideal.ofBits_zero_f32

/-- The cast of a 64 × 128 block to its own shape changes nothing. -/
theorem pay1_eq (v : FVec Ideal S64x128 .f32) : k0_pay1 (F := Ideal) v = v := by
  unfold k0_pay1
  exact shapeCast_self v _

/-- The running total written out under a leading unit axis: at (0, r, f) it is the total at (r, f). -/
theorem pay2_apply (v : Vec Ideal S64x128 .f32) (r : Fin 64) (f : Fin 128) :
    k0_pay2 (F := Ideal) v (ix3 0 r f) = v (ix2 r f) := by
  unfold k0_pay2
  exact shapeCast_ab_1ab_apply v _ 0 r f

/-- The running total starts from the zero array. -/
theorem pay3_apply (r : Fin 64) (f : Fin 128) : k0_pay3 (F := Ideal) (ix2 r f) = 0 := by
  unfold k0_pay3
  rw [shapeCast_self, broadcast_apply]
  exact Ideal.ofBits_zero_f32

end Cert.KernelIdeal.Pay

end
-- ==== Proof.Spec.lean ====
/-
  What the layer computes, as one function of its three arrays, index by index over the extended reals.

  For a batch entry b, a node n and a feature f, with W split into its top half W₁ (rows 0–127) and its bottom half W₂
  (rows 128–255):
      top(b, n, f) = Σ_k x[b, n, k] · W₁[k, f]          (node n as the first end of an edge)
      bot(b, q, f) = Σ_k x[b, q, k] · W₂[k, f]          (node q as the second end)
      edge(b, n, q, f) = max (top(b, n, f) + bot(b, q, f) + bias[f]) 0
      out[b, n, f] = Σ_q edge(b, n, q, f)               (q over all 256 nodes)
  Both programs are shown to compute `nodeSum`: one adds the 256 edge terms of a node in two halves of 128, carried in a
  scratch, the other adds them in one sweep; addition on the extended reals is commutative and associative, so the two
  agree whatever the entries are (finiteness of the inputs is not used).
-/
import Idealize.ShloMosaic.PureOps.Ideal
import Idealize.ShloMosaic.Lib.ValueIdx

noncomputable section

open scoped BigOperators

namespace Cert.PairSum

open Idealize.ShloMosaic Idealize.ShloMosaic.ValueIdx

/-- The shapes of x, W and the bias. -/
abbrev XSh : Shape := ⟨3, ![8, 256, 128]⟩
abbrev WSh : Shape := ⟨2, ![256, 128]⟩
abbrev BSh : Shape := ⟨1, ![128]⟩

/-- Row `k` of the top half of W is row `k` of W. -/
abbrev topRow (k : Fin 128) : Fin 256 := ⟨k.val, by omega⟩
/-- Row `k` of the bottom half of W is row `128 + k` of W. -/
abbrev botRow (k : Fin 128) : Fin 256 := ⟨128 + k.val, by omega⟩

/-- Node `n`'s projection through the top half of W. -/
def top (x : XSh.Idx → EReal) (W : WSh.Idx → EReal) (bb : Fin 8) (n : Fin 256) (f : Fin 128) : EReal :=
  ∑ k : Fin 128, x (ix3 bb n k) * W (ix2 (topRow k) f)

/-- Node `q`'s projection through the bottom half of W. -/
def bot (x : XSh.Idx → EReal) (W : WSh.Idx → EReal) (bb : Fin 8) (q : Fin 256) (f : Fin 128) : EReal :=
  ∑ k : Fin 128, x (ix3 bb q k) * W (ix2 (botRow k) f)

/-- The rectified embedding of the edge from node `n` to node `q`. -/
def edge (x : XSh.Idx → EReal) (W : WSh.Idx → EReal) (b : BSh.Idx → EReal) (bb : Fin 8) (n q : Fin 256) (f : Fin 128) : EReal :=
  max (top x W bb n f + bot x W bb q f + b (ix1 f)) 0

/-- The layer's result: each node's edge embeddings summed over the edge's second end. -/
def nodeSum (x : XSh.Idx → EReal) (W : WSh.Idx → EReal) (b : BSh.Idx → EReal) : XSh.Idx → EReal :=
  fun i => ∑ q : Fin 256, edge x W b (i 0) (i 1) q (i 2)

theorem nodeSum_apply (x : XSh.Idx → EReal) (W : WSh.Idx → EReal) (b : BSh.Idx → EReal) (bb : Fin 8) (n : Fin 256) (f : Fin 128) :
    nodeSum x W b (ix3 bb n f) = ∑ q : Fin 256, edge x W b bb n q f := rfl

end Cert.PairSum

end
-- ==== Proof.IdealBlocks.lean ====
/-
  What each input window's block is, entry by entry, in terms of the three given arrays x, W and the bias.

  At point t = (b, i, j) of the 8 × 4 × 2 grid the body sees five blocks:
    • 64 rows of x, batch entry b, rows 64·i … 64·i + 63 (the first ends of the edges);
    • 128 rows of x, batch entry b, rows 128·j … 128·j + 127 (the second ends);
    • the top half of W (rows 0 … 127) and the bottom half of W (rows 128 … 255), each whole;
    • the bias, as one row of 128.
  The two halves of W and the bias row are arrays that three host lines write from W and the bias before the launch, so
  each of those blocks is read through the host line that made it: a slice of W from row 0 or row 128, and the bias
  with a unit axis put in front.
-/
import proofs.«131842_j10565619548782_1_alg».proof.Proof.IdealLaunchBase
import proofs.«131842_j10565619548782_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Rel

open Cert.KernelIdeal Cert.KernelIdeal.Gen Cert.PairSum Idealize.ShloMosaic Idealize.ShloMosaic.ValueIdx Idealize.ShloMosaic.TcCoe

variable {F : FTy → Type} [FloatOps F]
variable (m : (ℓ : Loc nD τ sig) → Buf (Elt F) ℓ)

/-! ## Where each window's index map points, over the whole grid

The grid has 8 × 4 × 2 points (b, i, j), numbered row-major: point t has b = t / 8, i = (t / 2) mod 4, j = t mod 2.
Each fact below is decided once over the 64 points. -/

/-- Window 0 shows block (b, i, 0) of x. -/
theorem idxX : ∀ t : Fin cfg0.N,
    win0_0.index t 0 = t.val / 8 ∧ win0_0.index t 1 = (t.val / 2) % 4 ∧ win0_0.index t 2 = 0 :=
  (by decide +kernel : ∀ t : Fin grid0.N, _)

/-- Window 1 shows block (b, j, 0) of x. -/
theorem idxY : ∀ t : Fin cfg0.N,
    win0_1.index t 0 = t.val / 8 ∧ win0_1.index t 1 = t.val % 2 ∧ win0_1.index t 2 = 0 :=
  (by decide +kernel : ∀ t : Fin grid0.N, _)

/-- Windows 2, 3 and 4 show the whole of their small arrays: block (0, 0) at every point. -/
theorem idxW1 : ∀ t : Fin cfg0.N, win0_2.index t 0 = 0 ∧ win0_2.index t 1 = 0 :=
  (by decide +kernel : ∀ t : Fin grid0.N, _)
theorem idxW2 : ∀ t : Fin cfg0.N, win0_3.index t 0 = 0 ∧ win0_3.index t 1 = 0 :=
  (by decide +kernel : ∀ t : Fin grid0.N, _)
theorem idxB : ∀ t : Fin cfg0.N, win0_4.index t 0 = 0 ∧ win0_4.index t 1 = 0 :=
  (by decide +kernel : ∀ t : Fin grid0.N, _)

/-! ## The two blocks of x

A block's coordinate on an axis is the block index times the block's extent plus the coordinate inside the block. -/

/-- The first-end block at point t: row r of it is row 64 · i + r of batch entry b of x. -/
theorem blockX_apply (c : Dev nD) (t : Fin cfg0.N) (r : Fin 64) (k : Fin 128) (bb : Fin 8) (n : Fin 256)
    (hb : bb.val = t.val / 8) (hn : n.val = 64 * ((t.val / 2) % 4) + r.val) :
    (blockAt m c 0 t : Vec F S1x64x128 .f32) (ix3 0 r k) = m ((c : Thread nD τ).loc main_arg0) (ix3 bb n k) := by
  obtain ⟨h0, h1, h2⟩ := idxX t
  unfold blockAt
  rw [View.read_apply]
  show entryVal m c main_arg0 (((cfg0.win 0).blk t).view.emb (ix3 0 r k)) = _
  rw [entry_arg0]
  refine congrArg _ (funext fun a => Fin.ext ?_)
  match a with
  | ⟨0, _⟩ => show win0_0.index t 0 * 1 + 1 * 0 = bb.val; rw [h0]; omega
  | ⟨1, _⟩ => show win0_0.index t 1 * 64 + 1 * r.val = n.val; rw [h1]; omega
  | ⟨2, _⟩ => show win0_0.index t 2 * 128 + 1 * k.val = k.val; rw [h2]; omega

/-- The second-end block at point t: row q of it is row 128 · j + q of batch entry b of x. -/
theorem blockY_apply (c : Dev nD) (t : Fin cfg0.N) (q : Fin 128) (k : Fin 128) (bb : Fin 8) (n : Fin 256)
    (hb : bb.val = t.val / 8) (hn : n.val = 128 * (t.val % 2) + q.val) :
    (blockAt m c 1 t : Vec F S1x128x128 .f32) (ix3 0 q k) = m ((c : Thread nD τ).loc main_arg0) (ix3 bb n k) := by
  obtain ⟨h0, h1, h2⟩ := idxY t
  unfold blockAt
  rw [View.read_apply]
  show entryVal m c main_arg0 (((cfg0.win 1).blk t).view.emb (ix3 0 q k)) = _
  rw [entry_arg0]
  refine congrArg _ (funext fun a => Fin.ext ?_)
  match a with
  | ⟨0, _⟩ => show win0_1.index t 0 * 1 + 1 * 0 = bb.val; rw [h0]; omega
  | ⟨1, _⟩ => show win0_1.index t 1 * 128 + 1 * q.val = n.val; rw [h1]; omega
  | ⟨2, _⟩ => show win0_1.index t 2 * 128 + 1 * k.val = k.val; rw [h2]; omega

/-! ## The halves of W and the bias row

Each is the whole of an array a host line wrote from a given array before the launch: rows 0–127 of W, rows 128–255 of
W, and the bias as one row. -/

/-- The top half of W: row k of it is row k of W. -/
theorem blockW1_apply (c : Dev nD) (t : Fin cfg0.N) (k f : Fin 128) :
    (blockAt m c 2 t : Vec F S128x128 .f32) (ix2 k f) = m ((c : Thread nD τ).loc main_arg1) (ix2 (topRow k) f) := by
  have e : (entryVal m c main_v0 : S128x128.Idx → Elt F .f32)
      = extractStridedSlice S128x128 ![0, 0] (m ((c : Thread nD τ).loc main_arg1)) Facts₀.slices_S256x128_S128x128_0_0 := by
    dsimp only [entryVal, hostOps0]; after_results
  obtain ⟨h0, h1⟩ := idxW1 t
  unfold blockAt
  rw [View.read_apply]
  show entryVal m c main_v0 (((cfg0.win 2).blk t).view.emb (ix2 k f)) = _
  refine (congrFun e _).trans (extractStridedSlice_apply _ _ _ _ (ix2 (topRow k) f) fun a => ?_)
  match a with
  | ⟨0, _⟩ => show k.val = 0 + (win0_2.index t 0 * 128 + 1 * k.val); rw [h0]; omega
  | ⟨1, _⟩ => show f.val = 0 + (win0_2.index t 1 * 128 + 1 * f.val); rw [h1]; omega

/-- The bottom half of W: row k of it is row 128 + k of W. -/
theorem blockW2_apply (c : Dev nD) (t : Fin cfg0.N) (k f : Fin 128) :
    (blockAt m c 3 t : Vec F S128x128 .f32) (ix2 k f) = m ((c : Thread nD τ).loc main_arg1) (ix2 (botRow k) f) := by
  have e : (entryVal m c main_v1 : S128x128.Idx → Elt F .f32)
      = extractStridedSlice S128x128 ![128, 0] (m ((c : Thread nD τ).loc main_arg1)) Facts₀.slices_S256x128_S128x128_128_0 := by
    dsimp only [entryVal, hostOps0]; after_results
  obtain ⟨h0, h1⟩ := idxW2 t
  unfold blockAt
  rw [View.read_apply]
  show entryVal m c main_v1 (((cfg0.win 3).blk t).view.emb (ix2 k f)) = _
  refine (congrFun e _).trans (extractStridedSlice_apply _ _ _ _ (ix2 (botRow k) f) fun a => ?_)
  match a with
  | ⟨0, _⟩ => show 128 + k.val = 128 + (win0_3.index t 0 * 128 + 1 * k.val); rw [h0]; omega
  | ⟨1, _⟩ => show f.val = 0 + (win0_3.index t 1 * 128 + 1 * f.val); rw [h1]; omega

/-- The bias as a row: its entry (0, f) is the bias at f. -/
theorem blockB_apply (c : Dev nD) (t : Fin cfg0.N) (f : Fin 128) :
    (blockAt m c 4 t : Vec F S1x128 .f32) (ix2 0 f) = m ((c : Thread nD τ).loc main_arg2) (ix1 f) := by
  have e : (entryVal m c main_v2 : S1x128.Idx → Elt F .f32)
      = shapeCast S1x128 (m ((c : Thread nD τ).loc main_arg2)) Facts₀.shapeCasts_S128_S1x128 := by
    dsimp only [entryVal, hostOps0]; after_results; rfl
  obtain ⟨h0, h1⟩ := idxB t
  unfold blockAt
  rw [View.read_apply]
  show entryVal m c main_v2 (((cfg0.win 4).blk t).view.emb (ix2 0 f)) = _
  refine (congrFun e _).trans (shapeCast_apply _ _ _ (ix1 f) ?_)
  rw [Shape.rowMajor_val_one, Shape.rowMajor_val_two]
  show f.val = (win0_4.index t 0 * 1 + 1 * 0) * 128 + (win0_4.index t 1 * 128 + 1 * f.val)
  rw [h0, h1]; omega

end Cert.KernelIdeal.Rel

end
-- ==== Proof.IdealSums.lean ====
/-
  The idealized kernel's result is the layer's function `nodeSum` of the three given arrays.

  Point t of the grid has batch entry b = t / 8, row block i = (t / 2) mod 4 and column block j = t mod 2. At that point the
  body adds, for each of its 64 rows n = 64 i + r and each feature f, the 128 edge terms whose second end is q = 128 j + q',
  to the scratch. So after an even point the scratch holds the sum over the first 128 second ends, after the odd point that
  follows the sum over all 256, which is what that point copies into block (b, i) of the result; the 32 odd-numbered blocks
  tile the result array.
-/
import proofs.«131842_j10565619548782_1_alg».proof.Proof.IdealPieces
import proofs.«131842_j10565619548782_1_alg».proof.Proof.IdealLaunchRun
import proofs.«131842_j10565619548782_1_alg».proof.Proof.IdealPayload
import proofs.«131842_j10565619548782_1_alg».proof.Proof.IdealBlocks
import proofs.«131842_j10565619548782_1_alg».proof.Proof.Spec
import Idealize.ShloMosaic.Lib.Pipeline.Value
import Mathlib.Algebra.BigOperators.Fin

set_option maxRecDepth 16384

noncomputable section

open scoped BigOperators

namespace Cert.KernelIdeal.Rel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay Cert.PairSum

variable (m : (ℓ : Loc nD τ sig) → Buf (Elt Ideal) ℓ) (ρ : Dev nD → PrngReg)

/-- The three given arrays on core `c`. -/
abbrev xs (c : Dev nD) : XSh.Idx → EReal := m ((c : Thread nD τ).loc main_arg0)
abbrev ws (c : Dev nD) : WSh.Idx → EReal := m ((c : Thread nD τ).loc main_arg1)
abbrev bs (c : Dev nD) : BSh.Idx → EReal := m ((c : Thread nD τ).loc main_arg2)

theorem point_lt (t : Fin cfg0.N) : t.val < 64 := lt_of_lt_of_eq t.isLt N_0

/-- The batch entry, the node of row `r`, and the second end number `q` of point `t`. -/
def batchOf (t : Fin cfg0.N) : Fin 8 := ⟨t.val / 8, by have := point_lt t; omega⟩
def nodeOf (t : Fin cfg0.N) (r : Fin 64) : Fin 256 := ⟨64 * ((t.val / 2) % 4) + r.val, by have := r.isLt; omega⟩
def endOf (t : Fin cfg0.N) (q : Fin 128) : Fin 256 := ⟨128 * (t.val % 2) + q.val, by have := q.isLt; omega⟩

theorem endOf_even (t : Fin cfg0.N) (h : t.val % 2 = 0) (q : Fin 128) : endOf t q = ⟨q.val, by have := q.isLt; omega⟩ :=
  Fin.ext (by show 128 * (t.val % 2) + q.val = q.val; rw [h]; omega)
theorem endOf_odd (t : Fin cfg0.N) (h : t.val % 2 = 1) (q : Fin 128) : endOf t q = ⟨128 + q.val, by have := q.isLt; omega⟩ :=
  Fin.ext (by show 128 * (t.val % 2) + q.val = 128 + q.val; rw [h])

/-- A sum over 256 second ends is the sum over the first 128 plus the sum over the last 128. -/
theorem sum_halves (g : Fin 256 → EReal) :
    (∑ q : Fin 128, g ⟨q.val, by have := q.isLt; omega⟩) + ∑ q : Fin 128, g ⟨128 + q.val, by have := q.isLt; omega⟩ = ∑ q : Fin 256, g q :=
  (Fin.sum_univ_add (M := EReal) (a := 128) (b := 128) g).symm

/-- The point's work at (r, f): what the scratch held plus the 128 edge terms of node `nodeOf t r` whose second ends are
    the point's. -/
theorem work_apply (c : Dev nD) (t : Fin cfg0.N) (acc : Vec Ideal S64x128 .f32) (r : Fin 64) (f : Fin 128) :
    k0_pay1 (F := Ideal) (k0_pay4 (F := Ideal) (blockAt m c 0 t) (blockAt m c 1 t) (blockAt m c 2 t) (blockAt m c 3 t) (blockAt m c 4 t) acc) (ix2 r f)
      = acc (ix2 r f) + ∑ q : Fin 128, edge (xs m c) (ws m c) (bs m c) (batchOf t) (nodeOf t r) (endOf t q) f := by
  rw [pay1_eq]
  refine (pay4_apply (blockAt m c 0 t) (blockAt m c 1 t) (blockAt m c 2 t) (blockAt m c 3 t) (blockAt m c 4 t) acc r f).trans ?_
  refine congrArg (acc (ix2 r f) + ·) (Finset.sum_congr rfl fun q _ => ?_)
  unfold edge top bot
  refine congrArg (max · 0) ?_
  refine congrArg₂ (· + ·) (congrArg₂ (· + ·) (Finset.sum_congr rfl fun k _ => ?_) (Finset.sum_congr rfl fun k _ => ?_)) ?_
  · rw [blockX_apply m c t r k (batchOf t) (nodeOf t r) rfl rfl, blockW1_apply m c t k f]
  · rw [blockY_apply m c t q k (batchOf t) (endOf t q) rfl rfl, blockW2_apply m c t k f]
  · exact blockB_apply m c t f

/-- After an even point the scratch holds, for each row and feature, the edge terms over the first 128 second ends. -/
theorem acc_even (c : Dev nD) (t : Fin cfg0.N) (h : t.val % 2 = 0) (r : Fin 64) (f : Fin 128) :
    (stateAt m c t.val t.isLt).2 (ix2 r f)
      = ∑ q : Fin 128, edge (xs m c) (ws m c) (bs m c) (batchOf t) (nodeOf t r) ⟨q.val, by have := q.isLt; omega⟩ f := by
  rw [stateAt_even m c t h]
  show accResetAt m c t h (ix2 r f) = _
  rw [accResetAt_eq, work_apply, pay3_apply, zero_add]
  exact Finset.sum_congr rfl fun q _ => by rw [endOf_even t h q]

/-- The even point before an odd one: same batch entry, same row block. -/
theorem pred_coords (t : Fin cfg0.N) (h : t.val % 2 = 1) :
    (t.val - 1) % 2 = 0 ∧ (t.val - 1) / 8 = t.val / 8 ∧ ((t.val - 1) / 2) % 4 = (t.val / 2) % 4 := by
  have := point_lt t; omega

/-- After an odd point the scratch holds the whole sum over the 256 second ends, -/
theorem acc_odd (c : Dev nD) (t : Fin cfg0.N) (h : t.val % 2 = 1) (r : Fin 64) (f : Fin 128) :
    k0_pay1 (F := Ideal) (k0_pay4 (F := Ideal) (blockAt m c 0 t) (blockAt m c 1 t) (blockAt m c 2 t) (blockAt m c 3 t) (blockAt m c 4 t)
        (stateAt m c (t.val - 1) (Nat.lt_of_le_of_lt (Nat.sub_le _ _) t.isLt)).2) (ix2 r f)
      = ∑ q : Fin 256, edge (xs m c) (ws m c) (bs m c) (batchOf t) (nodeOf t r) q f := by
  obtain ⟨p0, p1, p2⟩ := pred_coords t h
  rw [work_apply]
  have hprev := acc_even m c ⟨t.val - 1, Nat.lt_of_le_of_lt (Nat.sub_le _ _) t.isLt⟩ p0 r f
  have hb : batchOf ⟨t.val - 1, Nat.lt_of_le_of_lt (Nat.sub_le _ _) t.isLt⟩ = batchOf t := Fin.ext p1
  have hn : nodeOf ⟨t.val - 1, Nat.lt_of_le_of_lt (Nat.sub_le _ _) t.isLt⟩ r = nodeOf t r :=
    Fin.ext (by show 64 * (((t.val - 1) / 2) % 4) + r.val = 64 * ((t.val / 2) % 4) + r.val; rw [p2])
  rw [hb, hn] at hprev
  rw [hprev, ← sum_halves]
  exact congrArg _ (Finset.sum_congr rfl fun q _ => by rw [endOf_odd t h q])

/-- and so does the result's buffer, under its leading unit axis. -/
theorem out_odd (c : Dev nD) (t : Fin cfg0.N) (h : t.val % 2 = 1) (r : Fin 64) (f : Fin 128) :
    (stateAt m c t.val t.isLt).1 (ix3 0 r f)
      = ∑ q : Fin 256, edge (xs m c) (ws m c) (bs m c) (batchOf t) (nodeOf t r) q f := by
  rw [stateAt_odd m c t h]
  show outEmitAt m c t h _ (ix3 0 r f) = _
  rw [outEmitAt_eq, pay2_apply]
  exact acc_odd m c t h r f

/-! ## From the blocks to the array -/

/-- The result window's index map over the grid: block (t / 8, (t / 2) mod 4, 0). -/
theorem outIndex : ∀ t : Fin cfg0.N, win0_5.index t (0 : Fin 3) = t.val / 8 ∧ win0_5.index t (1 : Fin 3) = (t.val / 2) % 4
    ∧ win0_5.index t (2 : Fin 3) = 0 :=
  (by decide +kernel : ∀ t : Fin grid0.N, _)

/-- What an odd point writes back is its block of `nodeSum`. -/
theorem flushed_eq (c : Dev nD) (t : Fin cfg0.N) (hf : (cfg0.win 5).flush t = true) :
    (dats m 0 c).flushed 5 t = ((cfg0.win 5).blk t).view.read (Elt Ideal) (nodeSum (xs m c) (ws m c) (bs m c)) := by
  have h1 : t.val % 2 = 1 := (flush0_5 t).mp hf
  obtain ⟨e0, e1, e2⟩ := outIndex t
  show (cfg0.win 5).cut (grid0.coords t) ((dats m 0 c).after 5 t) = _
  rw [after5]
  funext y
  obtain ⟨a, r, f, rfl⟩ : ∃ (a : Fin 1) (r : Fin 64) (f : Fin 128), y = ix3 a r f := ⟨y 0, y 1, y 2, eq_ix3 y⟩
  obtain rfl : a = 0 := Subsingleton.elim _ _
  show (stateAt m c t.val t.isLt).1 (ix3 0 r f) = nodeSum (xs m c) (ws m c) (bs m c) (((cfg0.win 5).blk t).view.emb (ix3 0 r f))
  rw [out_odd m c t h1 r f]
  have hidx : ((cfg0.win 5).blk t).view.emb (ix3 (0 : Fin 1) r f) = ix3 (batchOf t) (nodeOf t r) f := by
    funext ax; apply Fin.ext
    match ax with
    | ⟨0, _⟩ => show win0_5.index t (0 : Fin 3) * 1 + 1 * 0 = t.val / 8; omega
    | ⟨1, _⟩ => show win0_5.index t (1 : Fin 3) * 64 + 1 * r.val = 64 * ((t.val / 2) % 4) + r.val; omega
    | ⟨2, _⟩ => show win0_5.index t (2 : Fin 3) * 128 + 1 * f.val = f.val; omega
  rw [hidx, nodeSum_apply]

/-- An index of the result array is in point `t`'s block iff each coordinate is in the block's range on its axis. -/
theorem mem_outBlock (t : Fin cfg0.N) (i : S8x256x128.Idx) :
    i ∈ ((cfg0.win 5).blk t).view.set ↔ ∀ a : Fin 3, win0_5.index t a * S1x64x128.size a ≤ (i a).val ∧ (i a).val < win0_5.index t a * S1x64x128.size a + S1x64x128.size a := by
  show i ∈ ((View.whole main_v3).slice (win0_5.rect t)).set ↔ _
  rw [View.set_slice_whole, Rect.mem_set_unit]
  exact Iff.rfl

/-- Every index (b, n, f) of the result lies in the block the odd point 8 b + 2 (n / 64) + 1 writes back. -/
theorem covered (i : S8x256x128.Idx) : ∃ t : Fin cfg0.N, (cfg0.win 5).flush t = true ∧ i ∈ ((cfg0.win 5).blk t).view.set := by
  have hi0 : (i 0).val < 8 := (i 0).isLt
  have hi1 : (i 1).val < 256 := (i 1).isLt
  have hi2 : (i 2).val < 128 := (i 2).isLt
  have hN : cfg0.N = 64 := N_0
  refine ⟨⟨8 * (i 0).val + 2 * ((i 1).val / 64) + 1, by omega⟩, (flush0_5 _).mpr (by show (8 * (i 0).val + 2 * ((i 1).val / 64) + 1) % 2 = 1; omega), ?_⟩
  obtain ⟨e0, e1, e2⟩ := outIndex ⟨8 * (i 0).val + 2 * ((i 1).val / 64) + 1, by omega⟩
  rw [mem_outBlock]
  intro a
  match a with
  | ⟨0, _⟩ => show win0_5.index _ (0 : Fin 3) * 1 ≤ (i 0).val ∧ (i 0).val < win0_5.index _ (0 : Fin 3) * 1 + 1; dsimp only at e0; omega
  | ⟨1, _⟩ => show win0_5.index _ (1 : Fin 3) * 64 ≤ (i 1).val ∧ (i 1).val < win0_5.index _ (1 : Fin 3) * 64 + 64; dsimp only at e1; omega
  | ⟨2, _⟩ => show win0_5.index _ (2 : Fin 3) * 128 ≤ (i 2).val ∧ (i 2).val < win0_5.index _ (2 : Fin 3) * 128 + 128; dsimp only at e2; omega

/-- So the result array ends holding `nodeSum` of the three given arrays. -/
theorem result_eq (c : Dev nD) : (dats m 0 c).arrAt 5 cfg0.N = nodeSum (xs m c) (ws m c) (bs m c) :=
  (dats m 0 c).arrAt_eq_of_cover 5 (nodeSum (xs m c) (ws m c) (bs m c)) (flushed_eq m c) covered

/-- The idealized kernel's run, read: the result at `nodeSum`, the three arguments unchanged. -/
theorem run : θ_run defs (onTc (τ := τ) (main (F := Ideal))) ⟨m, fun _ => 0, ρ⟩ fun r => ∀ c : Dev nD,
      r.2.mem ((c : Thread nD τ).loc main_v3) = nodeSum (xs m c) (ws m c) (bs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 5).trans (result_eq m c),
      ((h c).1 0).trans (((dats m 0 c).arrAt_in 0 rfl _).trans ((A_eq m c 0).trans (entry_arg0 m c))),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

end Cert.KernelIdeal.Rel

end
-- ==== Proof.RefIsSpec.lean ====
/-
  The reference program computes the layer's specification.

  The reference slices W into its two halves, multiplies x by each, lays the two products out along two
  different node axes of an 8 x 256 x 256 x 128 array (the first product constant along the third axis, the
  second constant along the second), adds them and the bias (constant along all but the last axis), takes the
  maximum with zero, and sums the third axis starting from zero. Read at a result index (b, n, f) this is
      0 + Σ_q max ((Σ_k x[b,n,k]·W[k,f]) + (Σ_k x[b,q,k]·W[128+k,f]) + bias[f]) 0,
  which is the specification's sum of edge terms over the second end q; the leading zero is dropped by
  zero_add. No rearrangement of the sum is needed on this side.
-/
import proofs.«131842_j10565619548782_1_alg».proof.Proof.Gen.ReferenceIdeal.Read
import proofs.«131842_j10565619548782_1_alg».proof.Proof.Spec

noncomputable section

open scoped BigOperators

namespace Cert.PairSum.Ref

open Cert.ReferenceIdeal Cert.ReferenceIdeal.Gen Cert.ReferenceIdeal.Read
open Idealize.ShloMosaic Idealize.ShloMosaic.ValueIdx

/-! ## The index maps of the layout operations, at coordinates -/

/-- The summed axis is the third of four: the summand of (b, n, f) at q sits at (b, n, q, f). -/
theorem idx_sum (bb : Fin 8) (n : Fin 256) (f : Fin 128) (q : Fin 256) :
    idx_main_v13 (ix3 bb n f) q = ix4 bb n q f :=
  funext fun a => by match a with | ⟨0, _⟩ => rfl | ⟨1, _⟩ => rfl | ⟨2, _⟩ => rfl | ⟨3, _⟩ => rfl

/-- The first product is laid out constant along the third axis: (b, n, q, f) reads it at (b, n, f). -/
theorem idx_first (bb : Fin 8) (n q : Fin 256) (f : Fin 128) :
    idx_main_v4 (idx_main_v6 (ix4 bb n q f)) = ix3 bb n f :=
  funext fun a => by match a with | ⟨0, _⟩ => rfl | ⟨1, _⟩ => rfl | ⟨2, _⟩ => rfl

/-- The second product is laid out constant along the second axis: (b, n, q, f) reads it at (b, q, f). -/
theorem idx_second (bb : Fin 8) (n q : Fin 256) (f : Fin 128) :
    idx_main_v5 (idx_main_v7 (ix4 bb n q f)) = ix3 bb q f :=
  funext fun a => by match a with | ⟨0, _⟩ => rfl | ⟨1, _⟩ => rfl | ⟨2, _⟩ => rfl

/-- The bias is laid out along the last axis only: (b, n, q, f) reads it at f. -/
theorem idx_bias (bb : Fin 8) (n q : Fin 256) (f : Fin 128) :
    idx_main_v9 (idx_main_v10 (ix4 bb n q f)) = ix1 f :=
  funext fun a => by match a with | ⟨0, _⟩ => rfl

/-- The left factor of the first product's k-th term at (b, n, f) is x at (b, n, k). -/
theorem idx_lhs_top (bb : Fin 8) (n : Fin 256) (f : Fin 128) (k : Fin 128) :
    lidx_main_v2 (ix3 bb n f) k = ix3 bb n k :=
  funext fun a => by match a with | ⟨0, _⟩ => rfl | ⟨1, _⟩ => rfl | ⟨2, _⟩ => rfl

/-- The left factor of the second product's k-th term at (b, q, f) is x at (b, q, k). -/
theorem idx_lhs_bot (bb : Fin 8) (q : Fin 256) (f : Fin 128) (k : Fin 128) :
    lidx_main_v3 (ix3 bb q f) k = ix3 bb q k :=
  funext fun a => by match a with | ⟨0, _⟩ => rfl | ⟨1, _⟩ => rfl | ⟨2, _⟩ => rfl

/-- The right factor of the first product's k-th term at (b, n, f) is row k of W, column f. -/
theorem idx_rhs_top (bb : Fin 8) (n : Fin 256) (f : Fin 128) (k : Fin 128) :
    idx_main_v0 (ridx_main_v2 (ix3 bb n f) k) = ix2 (topRow k) f :=
  funext fun a => by match a with | ⟨0, _⟩ => rfl | ⟨1, _⟩ => rfl

/-- The right factor of the second product's k-th term at (b, q, f) is row 128 + k of W, column f. -/
theorem idx_rhs_bot (bb : Fin 8) (q : Fin 256) (f : Fin 128) (k : Fin 128) :
    idx_main_v1 (ridx_main_v3 (ix3 bb q f) k) = ix2 (botRow k) f :=
  funext fun a => by match a with | ⟨0, _⟩ => rfl | ⟨1, _⟩ => rfl

/-! ## The two products -/

/-- x times the top half of W, at (b, n, f), is the specification's projection through the top half. -/
theorem first_product (x : FVec Ideal S8x256x128 .f32) (W : FVec Ideal S256x128 .f32)
    (bb : Fin 8) (n : Fin 256) (f : Fin 128) :
    val_main_v2 (F := Ideal) x W (ix3 bb n f) = top x W bb n f := by
  rw [val_main_v2_apply]
  unfold top
  refine Finset.sum_congr rfl fun k _ => ?_
  rw [val_main_v0_apply, idx_lhs_top, idx_rhs_top]

/-- x times the bottom half of W, at (b, q, f), is the specification's projection through the bottom half. -/
theorem second_product (x : FVec Ideal S8x256x128 .f32) (W : FVec Ideal S256x128 .f32)
    (bb : Fin 8) (q : Fin 256) (f : Fin 128) :
    val_main_v3 (F := Ideal) x W (ix3 bb q f) = bot x W bb q f := by
  rw [val_main_v3_apply]
  unfold bot
  refine Finset.sum_congr rfl fun k _ => ?_
  rw [val_main_v1_apply, idx_lhs_bot, idx_rhs_bot]

/-! ## One edge term, and the sum -/

/-- The rectified sum at (b, n, q, f) is the specification's edge term. -/
theorem rectified (x : FVec Ideal S8x256x128 .f32) (W : FVec Ideal S256x128 .f32) (b : FVec Ideal S128 .f32)
    (bb : Fin 8) (n q : Fin 256) (f : Fin 128) :
    val_main_v12 (F := Ideal) x W b (ix4 bb n q f) = edge x W b bb n q f := by
  rw [val_main_v12_apply, val_main_v11_apply, val_main_v8_apply, val_main_v6_apply, val_main_v4_apply,
    val_main_v7_apply, val_main_v5_apply, val_main_v10_apply, val_main_v9_apply, val_main_call0_v0_apply,
    val_main_call0_cst_apply, idx_first, idx_second, idx_bias, first_product, second_product]
  simp only [Ideal.addf_def, Ideal.maximumf_def, Ideal.ofBits_def, Ideal.ofBits_zero_f32]
  rfl

/-- The reference's last stage is the specification. -/
theorem stage_eq (x : FVec Ideal S8x256x128 .f32) (W : FVec Ideal S256x128 .f32) (b : FVec Ideal S128 .f32) :
    val_main_v13 (F := Ideal) x W b = nodeSum x W b := by
  funext i
  obtain ⟨bb, n, f, rfl⟩ : ∃ (bb : Fin 8) (n : Fin 256) (f : Fin 128), i = ix3 bb n f := ⟨i 0, i 1, i 2, eq_ix3 i⟩
  rw [nodeSum_apply, val_main_v13_apply, val_main_cst_apply, Ideal.ofBits_def, Ideal.ofBits_zero_f32, zero_add]
  refine Finset.sum_congr rfl fun q _ => ?_
  rw [idx_sum, rectified]

/-- The reference's composed term, as its run states it, is the specification. -/
theorem ref_eq (x : FVec Ideal S8x256x128 .f32) (W : FVec Ideal S256x128 .f32) (b : FVec Ideal S128 .f32) :
    Host.reduceAdd (F := Ideal) (maximumf (addf (addf (broadcastInDim S8x256x256x128 ![0, 1, 2, 3] bcast_S8x256x1x128_S8x256x256x128_0_1_2_3 (broadcastInDim S8x256x1x128 ![0, 1, 3] bcast_S8x256x128_S8x256x1x128_0_1_3 (Host.dotGeneral (F := Ideal) dot_S8x256x128_S128x128_S8x256x128_2_0_01_1_n_n none x (extractStridedSlice S128x128 ![0, 0] W slices_S256x128_S128x128_0_0)))) (broadcastInDim S8x256x256x128 ![0, 1, 2, 3] bcast_S8x1x256x128_S8x256x256x128_0_1_2_3 (broadcastInDim S8x1x256x128 ![0, 2, 3] bcast_S8x256x128_S8x1x256x128_0_2_3 (Host.dotGeneral (F := Ideal) dot_S8x256x128_S128x128_S8x256x128_2_0_01_1_n_n none x (extractStridedSlice S128x128 ![128, 0] W slices_S256x128_S128x128_128_0))))) (broadcastInDim S8x256x256x128 ![0, 1, 2, 3] bcast_S1x1x1x128_S8x256x256x128_0_1_2_3 (broadcastInDim S1x1x1x128 ![3] bcast_S128_S1x1x1x128_3 b))) (broadcastInDim S8x256x256x128 ![] bcast_S_S8x256x256x128 (constant (F := Ideal) S_ .f32 0x00000000#32))) (constant (F := Ideal) S_ .f32 0x00000000#32) reducesTo_S8x256x256x128_S8x256x128_d2 h_S_
      = nodeSum x W b :=
  (val_main_v13_eq (F := Ideal) x W b).trans (stage_eq x W b)

end Cert.PairSum.Ref

end
-- ==== Proof.lean ====
/-
  The certificate of the pairwise edge layer: for a batch of 8 graphs of 256 nodes with 128 features,
      out[b, n, :] = Σ_q relu (x[b, n, :] · W₁ + x[b, q, :] · W₂ + bias),      W = [W₁; W₂],
  computed by a kernel that tiles the (n, q) pairs over a grid of 8 × 4 × 2 points and carries each tile row's partial
  sums in a scratch, against the plain array program that forms all 256 × 256 edge embeddings and sums them.

  The three frames. The kernel's two programs (word-level and idealized) are run by the launch rule for windows that
  share an array — x is handed to the kernel twice, as the first ends' block and as the second ends' block — with the
  body executed once per parity of the point number (Proof/IdealLaunch*.lean, Proof/IdealRun*.lean, and their word-level
  counterparts Proof/Bits*.lean). The reference's frame is its run with the result dropped.

  The value claim. Over the extended reals both programs compute the one function `Cert.PairSum.nodeSum` (Proof/Spec.lean):
  the kernel adds a node's 256 edge terms as two halves of 128 (Proof/IdealSums.lean, over the body's arithmetic read at an
  index in Proof/IdealPayload.lean and the windows' blocks in Proof/IdealBlocks.lean), the reference adds them in one sweep
  (Proof/RefIsSpec.lean); splitting a finite sum in two is valid for any extended reals, so the inputs' finiteness is not used.
  The narrowing of the matrix operands to a 16-bit format is the identity there, and the ideal pass rewrote nothing, so the
  idealized kernel is the kernel's own text read at the extended reals.
-/
import proofs.«131842_j10565619548782_1_alg».proof.Defs
import proofs.«131842_j10565619548782_1_alg».proof.Proof.Gen.Kernel
import proofs.«131842_j10565619548782_1_alg».proof.Proof.Gen.KernelIdeal
import proofs.«131842_j10565619548782_1_alg».proof.Proof.Gen.ReferenceIdeal
import proofs.«131842_j10565619548782_1_alg».proof.Proof.Gen.Pre_finite_inputs
import proofs.«131842_j10565619548782_1_alg».proof.Proof.Gen.ReferenceIdeal.Run
import proofs.«131842_j10565619548782_1_alg».proof.Proof.BitsLaunchRun
import proofs.«131842_j10565619548782_1_alg».proof.Proof.IdealSums
import proofs.«131842_j10565619548782_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to its end and leaves x, W and the bias as it found them. -/
theorem frame_k : Cert.frame_Kernel := fun m ρ _ => Cert.Kernel.Rel.frame m ρ

/-- So does its reading over the extended reals. -/
theorem frame_ki : Cert.frame_KernelIdeal := fun m ρ _ => Cert.KernelIdeal.Rel.frame m ρ

/-- The reference is a straight line of array operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on x, W and the bias, both programs end with `nodeSum` of them in their results. -/
theorem algebraic : Cert.algebraic_KernelIdeal_ReferenceIdeal := by
  intro m ρ m' ρ' _ hagree
  refine ⟨fun c => Cert.PairSum.nodeSum (Cert.KernelIdeal.Rel.xs m c) (Cert.KernelIdeal.Rel.ws m c) (Cert.KernelIdeal.Rel.bs m c),
    Cert.KernelIdeal.Rel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.PairSum.Ref.ref_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
